-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn_part1 {F : FTy → Type} [FloatOps F] (main_arg4 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x4096 .f32) (main_arg1 : FVec F S2048x4096 .f32) (main_arg2 : FVec F S2048x4096 .f32) (main_arg3 : FVec F S2048x4096 .f32) (main_arg4 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S2048x4096 : Shape := ⟨2, ![2048, 4096]⟩
abbrev S2048x1 : Shape := ⟨2, ![2048, 1]⟩
abbrev S128x128 : Shape := ⟨2, ![128, 128]⟩
abbrev S128x1 : Shape := ⟨2, ![128, 1]⟩
abbrev S128x16x128 : Shape := ⟨3, ![128, 16, 128]⟩
abbrev S128x128x16 : Shape := ⟨3, ![128, 128, 16]⟩
abbrev S128x128x128 : Shape := ⟨3, ![128, 128, 128]⟩
abbrev S128x128x1 : Shape := ⟨3, ![128, 128, 1]⟩
abbrev S128x16 : Shape := ⟨2, ![128, 16]⟩
abbrev S128 : Shape := ⟨1, ![128]⟩
abbrev S128x1x1 : Shape := ⟨3, ![128, 1, 1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1, .f32⟩
  | .local _ .vmem, ⟨11, _⟩ => ⟨S128x1, .f32⟩
  | .local _ .vmem, ⟨12, _⟩ => ⟨S128x16x128, .f32⟩
  | .local _ .vmem, ⟨13, _⟩ => ⟨S128x16x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v77 : BitVec 1 := Scalar.cmpi .eq arg1 c31_i32
  let v78 : BitVec 32 := Scalar.extui v77
  let c0_i32_30 : BitVec 32 := 0#32
  let v79 : BitVec 1 := Scalar.cmpi .ne v78 c0_i32_30
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S128x16x128_S128x16x128_0_0_0 : ∀ a, (![0, 0, 0] : Fin 3 → Nat) a + S128x16x128.size a ≤ S128x16x128.size a
  h_S128x16x128 : 0 < S128x16x128.numel
  shapeCasts_S128x16x128_S128x16x128 : S128x16x128.ShapeCasts S128x16x128
  inb_S128x128_S128x128_0_0 : ∀ a, (![0, 0] : Fin 2 → Nat) a + S128x128.size a ≤ S128x128.size a
  h_S128x128 : 0 < S128x128.numel
  iota_S128x128x16_d2_w32 : S128x128x16.Iotas .tc 32 [2]
  iota_S128x128x128_d2_w32 : S128x128x128.Iotas .tc 32 [2]
  shapeCasts_S128x128_S128x128x1 : S128x128.ShapeCasts S128x128x1
  broadcasts_S128x128x1_S128x128x16 : S128x128x1.Broadcasts S128x128x16
  natLt_1_32 : 1 < 32
  bitsLt_bf16_f32 : FTy.bits .bf16 < FTy.bits .f32
  broadcasts_S128x128x1_S128x128x128 : S128x128x1.Broadcasts S128x128x128
  reduces_S128x16x128_S128x16 : S128x16x128.Reduces [2] S128x16
  reduces_S128x16_S128 : S128x16.Reduces [1] S128
  shapeCasts_S128_S128x1 : S128.ShapeCasts S128x1
  shapeCasts_S128x1_S128x1x1 : S128x1.ShapeCasts S128x1x1
  broadcasts_S128x1x1_S128x16x128 : S128x1x1.Broadcasts S128x16x128
  inb_S128x1_S128x1_0_0 : ∀ a, (![0, 0] : Fin 2 → Nat) a + S128x1.size a ≤ S128x1.size a
  h_S128x1 : 0 < S128x1.numel
  reducesTo_S2048x1_S_d0_1 : S2048x1.ReducesTo [0, 1] S_
  h_S_ : 0 < S_.numel
  dot_S128x128x16_S128x128x128_S128x16x128_1_1_2_2_0_0_wf : DotDims.WF S128x128x16 S128x128x128 S128x16x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S2048x4096.size a
  hwx0_0 : ∀ i : grid0.Coords, EltTy.bits .f32 = 32 ∨ (Rect.block (s := S2048x4096) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S2048x4096.size a
  hwx0_1 : ∀ i : grid0.Coords, EltTy.bits .f32 = 32 ∨ (Rect.block (s := S2048x4096) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x4096.size a
  hwx0_2 : ∀ i : grid0.Coords, EltTy.bits .f32 = 32 ∨ (Rect.block (s := S2048x4096) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S2048x4096.size a
  hwx0_3 : ∀ i : grid0.Coords, EltTy.bits .f32 = 32 ∨ (Rect.block (s := S2048x4096) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S2048x4096.size a
  hwx0_4 : ∀ i : grid0.Coords, EltTy.bits .f32 = 32 ∨ (Rect.block (s := S2048x4096) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S2048x1.size a
  hwx0_5 : ∀ i : grid0.Coords, EltTy.bits .f32 = 32 ∨ (Rect.block (s := S2048x1) S128x1.size (cc0_transform_5 i) (hinb0_5 i)).WholeWords (EltTy.packing .f32)

variable [Facts₀]

def dot_S128x128x16_S128x128x128_S128x16x128_1_1_2_2_0_0 : DotDims S128x128x16 S128x128x128 S128x16x128 where
  lhsContracting := [1]
  rhsContracting := [1]
  lhsNonContracting := [2]
  rhsNonContracting := [2]
  lhsBatch := [0]
  rhsBatch := [0]
  wf := dot_S128x128x16_S128x128x128_S128x16x128_1_1_2_2_0_0_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S8388608 : Shape := ⟨1, ![8388608]⟩
abbrev S4096000 : Shape := ⟨1, ![4096000]⟩
abbrev S8388608x1 : Shape := ⟨2, ![8388608, 1]⟩
abbrev S2048x2000 : Shape := ⟨2, ![2048, 2000]⟩

abbrev nBuf : Space → Nat
  | .hbm => 123
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2048x4096, .i32⟩
  | .hbm, ⟨16, _⟩ => ⟨S2048x4096, .i32⟩
  | .hbm, ⟨17, _⟩ => ⟨S_, .i32⟩
  | .hbm, ⟨18, _⟩ => ⟨S2048x4096, .i32⟩
  | .hbm, ⟨19, _⟩ => ⟨S2048x4096, .i32⟩
  | .hbm, ⟨20, _⟩ => ⟨S2048, .i32⟩
  | .hbm, ⟨21, _⟩ => ⟨S2048x1, .i32⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x4096, .i32⟩
  | .hbm, ⟨26, _⟩ => ⟨S2048x4096, .i32⟩
  | .hbm, ⟨27, _⟩ => ⟨S8388608, .i32⟩
  | .hbm, ⟨28, _⟩ => ⟨S_, .f32⟩
  | .hbm, ⟨29, _⟩ => ⟨S4096000, .f32⟩
  | .hbm, ⟨30, _⟩ => ⟨S8388608, .f32⟩
  | .hbm, ⟨31, _⟩ => ⟨S_, .i32⟩
  | .hbm, ⟨32, _⟩ => ⟨S8388608, .i32⟩
  | .hbm, ⟨33, _⟩ => ⟨S8388608, .i1⟩
  | .hbm, ⟨34, _⟩ => ⟨S_, .i32⟩
  | .hbm, ⟨35, _⟩ => ⟨S8388608, .i32⟩
  | .hbm, ⟨36, _⟩ => ⟨S8388608, .i32⟩
  | .hbm, ⟨37, _⟩ => ⟨S8388608, .i32⟩
  | .hbm, ⟨38, _⟩ => ⟨S8388608x1, .i32⟩
  | .hbm, ⟨39, _⟩ => ⟨S4096000, .f32⟩
  | .hbm, ⟨40, _⟩ => ⟨S2048x2000, .f32⟩
  | .hbm, ⟨41, _⟩ => ⟨S2048x2000, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x2000, .f32⟩
  | .hbm, ⟨50, _⟩ => ⟨S2048x2000, .f32⟩
  | .hbm, ⟨51, _⟩ => ⟨S2048x4096, .f32⟩
  | .hbm, ⟨52, _⟩ => ⟨S_, .f32⟩
  | .hbm, ⟨53, _⟩ => ⟨S2048x4096, .f32⟩
  | .hbm, ⟨54, _⟩ => ⟨S2048x4096, .f32⟩
  | .hbm, ⟨55, _⟩ => ⟨S_, .f32⟩
  | .hbm, ⟨56, _⟩ => ⟨S2048x4096, .f32⟩
  | .hbm, ⟨57, _⟩ => ⟨S2048x4096, .f32⟩
  | .hbm, ⟨58, _⟩ => ⟨S2048x4096, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S2048x4096, .i32⟩
  | .hbm, ⟨63, _⟩ => ⟨S2048x4096, .i32⟩
  | .hbm, ⟨64, _⟩ => ⟨S_, .i32⟩
  | .hbm, ⟨65, _⟩ => ⟨S2048x4096, .i32⟩
  | .hbm, ⟨66, _⟩ => ⟨S2048x4096, .i32⟩
  | .hbm, ⟨67, _⟩ => ⟨S2048, .i32⟩
  | .hbm, ⟨68, _⟩ => ⟨S2048x1, .i32⟩
  | .hbm, ⟨69, _⟩ => ⟨S_, .i32⟩
  | .hbm, ⟨70, _⟩ => ⟨S2048x1, .i32⟩
  | .hbm, ⟨71, _⟩ => ⟨S2048x1, .i32⟩
  | .hbm, ⟨72, _⟩ => ⟨S2048x4096, .i32⟩
  | .hbm, ⟨73, _⟩ => ⟨S2048x4096, .i32⟩
  | .hbm, ⟨74, _⟩ => ⟨S8388608, .i32⟩
  | .hbm, ⟨75, _⟩ => ⟨S_, .f32⟩
  | .hbm, ⟨76, _⟩ => ⟨S4096000, .f32⟩
  | .hbm, ⟨77, _⟩ => ⟨S8388608, .f32⟩
  | .hbm, ⟨78, _⟩ => ⟨S_, .i32⟩
  | .hbm, ⟨79, _⟩ => ⟨S8388608, .i32⟩
  | .hbm, ⟨80, _⟩ => ⟨S8388608, .i1⟩
  | .hbm, ⟨81, _⟩ => ⟨S_, .i32⟩
  | .hbm, ⟨82, _⟩ => ⟨S8388608, .i32⟩
  | .hbm, ⟨83, _⟩ => ⟨S8388608, .i32⟩
  | .hbm, ⟨84, _⟩ => ⟨S8388608, .i32⟩
  | .hbm, ⟨85, _⟩ => ⟨S8388608x1, .i32⟩
  | .hbm, ⟨86, _⟩ => ⟨S4096000, .f32⟩
  | .hbm, ⟨87, _⟩ => ⟨S2048x2000, .f32⟩
  | .hbm, ⟨88, _⟩ => ⟨S2048x2000, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S2048x2000, .f32⟩
  | .hbm, ⟨97, _⟩ => ⟨S2048x2000, .f32⟩
  | .hbm, ⟨98, _⟩ => ⟨S2048x2000, .f32⟩
  | .hbm, ⟨99, _⟩ => ⟨S_, .f32⟩
  | .hbm, ⟨100, _⟩ => ⟨S2048, .f32⟩
  | .hbm, ⟨101, _⟩ => ⟨S2048x2000, .f32⟩
  | .hbm, ⟨102, _⟩ => ⟨S_, .f32⟩
  | .hbm, ⟨103, _⟩ => ⟨S2048, .f32⟩
  | .hbm, ⟨104, _⟩ => ⟨S2048, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S2048x2000, .f32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S2048, .f32⟩
  | .hbm, ⟨114, _⟩ => ⟨S2048, .f32⟩
  | .hbm, ⟨115, _⟩ => ⟨S2048, .f32⟩
  | .hbm, ⟨116, _⟩ => ⟨S2048, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_c_10 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_11 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_c_13 : Ref sig .tc := ⟨.hbm, 78, rfl⟩
abbrev main_v44 : Ref sig .tc := ⟨.hbm, 79, rfl⟩
abbrev main_v45 : Ref sig .tc := ⟨.hbm, 80, rfl⟩
abbrev main_c_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_call3_v2 : Ref sig .tc := ⟨.hbm, 91, rfl⟩
abbrev main_v52 : Ref sig .tc := ⟨.hbm, 92, rfl⟩
abbrev main_cst_15 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_call4_v0 : Ref sig .tc := ⟨.hbm, 101, rfl⟩
abbrev main_call4_cst : Ref sig .tc := ⟨.hbm, 102, rfl⟩
abbrev main_call4_v1 : Ref sig .tc := ⟨.hbm, 103, rfl⟩
abbrev main_v59 : Ref sig .tc := ⟨.hbm, 104, rfl⟩
abbrev main_cst_17 : Ref sig .tc := ⟨.hbm, 105, rfl⟩
abbrev main_v60 : Ref sig .tc := ⟨.hbm, 106, rfl⟩
abbrev main_v61 : Ref sig .tc := ⟨.hbm, 107, rfl⟩
abbrev main_call5_v0 : Ref sig .tc := ⟨.hbm, 108, rfl⟩
abbrev main_call5_cst : Ref sig .tc := ⟨.hbm, 109, rfl⟩
abbrev main_call5_v1 : Ref sig .tc := ⟨.hbm, 110, rfl⟩
abbrev main_v62 : Ref sig .tc := ⟨.hbm, 111, rfl⟩
abbrev main_cst_18 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_19 : Ref sig .tc := ⟨.hbm, 117, rfl⟩
abbrev main_v67 : Ref sig .tc := ⟨.hbm, 118, rfl⟩
abbrev main_cst_20 : Ref sig .tc := ⟨.hbm, 119, rfl⟩
abbrev main_v68 : Ref sig .tc := ⟨.hbm, 120, rfl⟩
abbrev main_cst_21 : Ref sig .tc := ⟨.hbm, 121, rfl⟩
abbrev main_v69 : Ref sig .tc := ⟨.hbm, 122, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x4096_0_1 : S2048x1.BroadcastsInDim S2048x4096 (![0, 1] : Fin 2 → Fin S2048x4096.rank)
  shapeCasts_S2048x4096_S8388608 : S2048x4096.ShapeCasts S8388608
  bcast_S_S4096000 : S_.BroadcastsInDim S4096000 (![] : Fin 0 → Fin S4096000.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S4096000_S2048x2000 : S4096000.ShapeCasts S2048x2000
  reducesTo_S2048x2000_S2048_d1 : S2048x2000.ReducesTo [1] S2048
  h_S_ : 0 < S_.numel
  bcast_S2048x1_S2048x2000_0_1 : S2048x1.BroadcastsInDim S2048x2000 (![0, 1] : Fin 2 → Fin S2048x2000.rank)
  bcast_S_S2048 : S_.BroadcastsInDim S2048 (![] : Fin 0 → Fin S2048.rank)
  reducesTo_S2048_S_d0 : S2048.ReducesTo [0] S_
  scatter_S4096000_S8388608x1_S8388608_n_0_0_1_wf : ScatterDims.WF S4096000 S8388608x1 S8388608 [] [0] [0] 1

variable [Facts₀]

def scatter_S4096000_S8388608x1_S8388608_n_0_0_1 : ScatterDims S4096000 S8388608x1 S8388608 where
  updateWindowDims := []
  insertedWindowDims := [0]
  scatterDimsToOperandDims := [0]
  indexVectorDim := 1
  wf := scatter_S4096000_S8388608x1_S8388608_n_0_0_1_wf

class Facts : Prop extends Facts₀ where

variable [Facts]
-- ==== Proof.KPieces.lean ====
/-
  What one run of the kernel body leaves behind, read as values: the two accumulators after the body are the
  accumulator the body found (zero at the first column block of a row block) plus this column block's partial
  histogram, and at the last column block the output column is the guarded cosine of the two finished accumulators.
-/
import proofs.«136550_j83373905149952_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The lane numbers 0..15 along the last axis, against which the high part of a bin word is compared. -/
abbrev lanes16 : IVec S128x128x16 32 := iota .tc S128x128x16 32 [2] iota_S128x128x16_d2_w32
/-- The lane numbers 0..127 along the last axis, against which the low seven bits of a bin word are compared. -/
abbrev lanes128 : IVec S128x128x128 32 := iota .tc S128x128x128 32 [2] iota_S128x128x128_d2_w32

/-- The predicted spectrum's accumulator after a column block: what it held plus the block's partial histogram of
    the m/z block x0 with the intensity block x1. -/
def updP (x0 x1 : Vec F S128x128 .f32) (prev : Vec F S128x16x128 .f32) : Vec F S128x16x128 .f32 :=
  k0_pay16 (k0_pay11 x0) x1 lanes16 lanes128 (k0_pay15 x0) prev

/-- The target spectrum's accumulator after a column block: what it held plus the block's partial histogram of the
    m/z block x2 with the masked intensity block x3 * x4. -/
def updT (x2 x3 x4 : Vec F S128x128 .f32) (prev : Vec F S128x16x128 .f32) : Vec F S128x16x128 .f32 :=
  k0_pay17 (k0_pay12 x2) (k0_pay13 x2) (k0_pay14 x3 x4) lanes16 lanes128 prev

/-- The output column of a row block: the guarded cosine of the two finished accumulators, row by row. -/
def fin (s0 s1 : Vec F S128x16x128 .f32) : Vec F S128x1 .f32 :=
  k0_pay1 (k0_pay4 s0 s1) (k0_pay5 s0) (k0_pay6 s1)

/-- The zero accumulator the first column block stores before it accumulates. -/
abbrev zeroP : Vec F S128x16x128 .f32 := k0_pay7 (F := F)
abbrev zeroT : Vec F S128x16x128 .f32 := k0_pay8 (F := F)

variable (c : Dev nD) (i : grid0.Coords)
  (arg2 : Memref sig .tc .vmem S128x128 .f32) (harg2 : arg2.IsWhole) (arg3 : Memref sig .tc .vmem S128x128 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x1 .f32) (harg7 : arg7.IsWhole)
  (arg8 : Memref sig .tc .vmem S128x16x128 .f32) (harg8 : arg8.IsWhole) (arg9 : Memref sig .tc .vmem S128x16x128 .f32) (harg9 : arg9.IsWhole)
  (x0 x1 x2 x3 x4 : Vec F S128x128 .f32) (xs0 xs1 : Vec F S128x16x128 .f32)

/-- Every offset of a whole-buffer access is zero: in three axes, -/
private theorem hz3 : (![0, 0, 0] : Fin 3 → Nat) = fun _ => 0 := funext fun a => by fin_cases a <;> rfl
/-- and in two. -/
private theorem hz2 : (![0, 0] : Fin 2 → Nat) = fun _ => 0 := funext fun a => by fin_cases a <;> rfl

/-- First column block: the predicted accumulator is the block's partial histogram over zero. -/
theorem scratchP_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = updP x0 x1 zeroP := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S128x16x128) hz3, View.readCov_unit_zero (S := S128x16x128) _ hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

/-- First column block: the target accumulator likewise. -/
theorem scratchT_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = updT x2 x3 x4 zeroT := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S128x16x128) hz3, View.readCov_unit_zero (S := S128x16x128) _ hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

/-- A middle column block adds its partial histogram to what the block before left. -/
theorem scratchP_B (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs0 xs1
      = updP x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

theorem scratchT_B (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1
      = updT x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

/-- The last column block adds its partial histogram too, -/
theorem scratchP_C (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs0 xs1
      = updP x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

theorem scratchT_C (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 x4 xs0 xs1
      = updT x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

/-- and stores the cosine of the two finished accumulators as the row block's output column. -/
theorem out_C (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1
      = fin (updP x0 x1 xs0) (updT x2 x3 x4 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg8.read_unread, harg9.read_unread, View.ld_unit_zero (S := S128x128) hz2,
    View.ld_unit_zero (S := S128x16x128) hz3, View.readCov_unit_zero (S := S128x16x128) _ hz3, shapeCast_self]
  rfl

end Cert.KernelIdeal.Pieces

end
-- ==== Proof.Spec.lean ====
/-
  The mathematics both programs compute, stated once over plain index types and the extended reals.

  A spectrum row holds pairs (m/z value, intensity). Each m/z value x falls into the bin whose word is
  clip (trunc (x * 2000), 0, 1999); a row's histogram at a bin is the sum of the intensities whose m/z value falls
  there. The two rows' histograms are then compared by a cosine with guarded norms, and the loss is one minus the
  mean cosine over the 2048 rows. The kernel keeps its histogram on a padded 16 x 128 grid of cells, cell (k1, k0)
  standing for bin 128 * k1 + k0; a cell's value is written as the kernel forms it, a sum of products of two one-hot
  factors and the intensity.
-/
import Idealize.ShloMosaic.PureOps.Ideal
import Idealize.ShloMosaic.PureOps.Ideal.Laws
import Idealize.ShloMosaic.Lib.ValueIdx

noncomputable section

namespace Cert.BinCos

open Idealize.ShloMosaic Idealize.ShloMosaic.ValueIdx

/-- The guard added to a norm, and the floor of a norm: the f32 nearest 1e-8. -/
abbrev eps : EReal := Ideal.ofBits .f32 0x322BCC77#32

/-- The bin word of an m/z value: x * 2000 truncated toward zero, clipped to [0, 1999]. -/
def binw (x : EReal) : BitVec 32 :=
  IntOp.minsi 1999#32 (IntOp.maxsi 0#32 (Ideal.fptosi 32 (x * Ideal.ofBits .f32 0x44FA0000#32)))

/-- A comparison bit as an extended real: 1 when set, 0 when clear. -/
def hot (c : BitVec 1) : EReal := (((c.setWidth 32).toInt : ℝ) : EReal)

/-- A row's histogram at the bin word w: the sum of the intensities v n whose m/z value p n has bin word w. -/
def hist {ν : Type} [Fintype ν] (p v : ν → EReal) (w : BitVec 32) : EReal :=
  ∑ n, if binw (p n) = w then v n else 0

/-- One entry's contribution to cell (k1, k0): the intensity times the two one-hot factors, the high part of
    the bin word against k1 and its low seven bits against k0. -/
def term (x y : EReal) (k1 : Fin 16) (k0 : Fin 128) : EReal :=
  (hot (IntOp.cmpi .eq (IntOp.shrsi .vector (binw x) 7#32) (BitVec.ofNat 32 k1.val)) * y)
    * hot (IntOp.cmpi .eq (IntOp.andi (binw x) 127#32) (BitVec.ofNat 32 k0.val))

/-- Cell (k1, k0) of a row's padded histogram. -/
def cell {ν : Type} [Fintype ν] (p v : ν → EReal) (k1 : Fin 16) (k0 : Fin 128) : EReal :=
  ∑ n, term (p n) (v n) k1 k0

/-- The guarded cosine of two families over any finite index type: each is divided by its norm plus eps, and the
    inner product of the two is divided by the product of the normalised families' norms, each floored at eps. -/
def cosOn {ι : Type} [Fintype ι] (a b : ι → EReal) : EReal :=
  Ideal.div
    (∑ i, Ideal.div (a i) (Ideal.sqrt (∑ j, a j * a j) + eps) * Ideal.div (b i) (Ideal.sqrt (∑ j, b j * b j) + eps))
    (max (Ideal.sqrt (∑ i, Ideal.div (a i) (Ideal.sqrt (∑ j, a j * a j) + eps)
                          * Ideal.div (a i) (Ideal.sqrt (∑ j, a j * a j) + eps))) eps
      * max (Ideal.sqrt (∑ i, Ideal.div (b i) (Ideal.sqrt (∑ j, b j * b j) + eps)
                            * Ideal.div (b i) (Ideal.sqrt (∑ j, b j * b j) + eps))) eps)

/-- One minus the mean of the 2048 rows' cosines. -/
def loss (cs : Fin 2048 → EReal) : EReal :=
  Ideal.ofBits .f32 0x3F800000#32 - Ideal.div (∑ r, cs r) (Ideal.ofBits .f32 0x45000000#32)

/-- An input array of 2048 rows of 4096 entries. -/
abbrev Arr : Type := (⟨2, ![2048, 4096]⟩ : Shape).Idx → EReal

/-- Row r's cosine over the 2000 bins: predicted m/z values x0 with intensities x1 against target m/z values x2
    with intensities x3 masked by x4. -/
def rowcos (x0 x1 x2 x3 x4 : Arr) (r : Fin 2048) : EReal :=
  cosOn (fun b : Fin 2000 => hist (fun n : Fin 4096 => x0 (ix2 r n)) (fun n => x1 (ix2 r n)) (BitVec.ofNat 32 b.val))
    (fun b : Fin 2000 => hist (fun n : Fin 4096 => x2 (ix2 r n)) (fun n => x3 (ix2 r n) * x4 (ix2 r n)) (BitVec.ofNat 32 b.val))

/-- The same over the kernel's 16 x 128 cells. -/
def rowcosCells (x0 x1 x2 x3 x4 : Arr) (r : Fin 2048) : EReal :=
  cosOn (fun k : Fin 16 × Fin 128 => cell (fun n : Fin 4096 => x0 (ix2 r n)) (fun n => x1 (ix2 r n)) k.1 k.2)
    (fun k : Fin 16 × Fin 128 => cell (fun n : Fin 4096 => x2 (ix2 r n)) (fun n => x3 (ix2 r n) * x4 (ix2 r n)) k.1 k.2)

/-- The result, a rank-0 array: the loss of the rows' cosines. -/
def result (x0 x1 x2 x3 x4 : Arr) : (⟨0, ![]⟩ : Shape).Idx → EReal := fun _ => loss (rowcos x0 x1 x2 x3 x4)

end Cert.BinCos

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPayUpd.lean ====
/-
  The kernel's accumulator payloads read at an index, over the extended reals: an update adds, at cell (k1, k0) of
  row rr, the sum over the block's 128 columns of the entry's contribution to that cell (the matrix unit's sum of
  products of the two one-hot factors and the intensity); the zero accumulator is 0 everywhere.
-/
import proofs.«136550_j83373905149952_1_alg».proof.Proof.KPieces
import proofs.«136550_j83373905149952_1_alg».proof.Proof.Spec
import proofs.«136550_j83373905149952_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.TcCoe Idealize.ShloMosaic.ValueIdx
open Cert.KernelIdeal Cert.KernelIdeal.Gen Cert.KernelIdeal.Pieces Cert.BinCos

/-- The zero accumulators hold 0 at every cell. -/
theorem zeroP_apply (j : S128x16x128.Idx) : (zeroP (F := Ideal)) j = (0 : EReal) := by
  unfold zeroP k0_pay7
  rw [shapeCast_self]
  exact Ideal.ofBits_zero_f32

theorem zeroT_apply (j : S128x16x128.Idx) : (zeroT (F := Ideal)) j = (0 : EReal) := by
  unfold zeroT k0_pay8
  rw [shapeCast_self]
  exact Ideal.ofBits_zero_f32

/-! ## Layout: a trailing unit axis added, then broadcast along it -/

/-- An `[a, b]` array cast to `[a, b, 1]` reads, at `(p, q, u)`, the operand at `(p, q)`, whatever the unit
    coordinate `u`: both sit at row-major position `p * b + q`. -/
private theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, the operand at `(p, q, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The two together: an `[a, b]` array repeated along a new last axis reads, at `(p, q, r)`, its entry `(p, q)`. -/
private theorem lift_apply {α : Type} {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ x h1) h2 (ix3 p q r) = x (ix2 p q) :=
  (broadcastTo_ab1_abc_apply _ h2 p q r).trans (shapeCast_ab_ab1_apply x h1 p q 0)

/-! ## The two parts of the bin words, entry by entry: the clipped, truncated product by 2000 is the bin word -/

/-- The low seven bits of the predicted bin word. -/
private theorem pay11_apply (x : FVec Ideal S128x128 .f32) (i : S128x128.Idx) :
    k0_pay11 (F := Ideal) x i = IntOp.andi (binw (x i)) 127#32 := rfl

/-- The high part of the target bin word. -/
private theorem pay12_apply (x : FVec Ideal S128x128 .f32) (i : S128x128.Idx) :
    k0_pay12 (F := Ideal) x i = IntOp.shrsi .vector (binw (x i)) 7#32 := rfl

/-- The low seven bits of the target bin word. -/
private theorem pay13_apply (x : FVec Ideal S128x128 .f32) (i : S128x128.Idx) :
    k0_pay13 (F := Ideal) x i = IntOp.andi (binw (x i)) 127#32 := rfl

/-- The masked intensity. -/
private theorem pay14_apply (x y : FVec Ideal S128x128 .f32) (i : S128x128.Idx) :
    k0_pay14 (F := Ideal) x y i = x i * y i := rfl

/-- The high part of the predicted bin word, repeated along the 16 lanes. -/
private theorem pay15_apply (x : FVec Ideal S128x128 .f32) (rr n : Fin 128) (k1 : Fin 16) :
    k0_pay15 (F := Ideal) x (ix3 rr n k1) = IntOp.shrsi .vector (binw (x (ix2 rr n))) 7#32 := by
  unfold k0_pay15
  exact lift_apply _ _ _ rr n k1

/-! ## The lane numbers -/

private theorem lanes16_apply (rr n : Fin 128) (k1 : Fin 16) : lanes16 (ix3 rr n k1) = BitVec.ofNat 32 k1.val :=
  iota_single_apply .tc S128x128x16 32 2 iota_S128x128x16_d2_w32 (ix3 rr n k1)

private theorem lanes128_apply (rr n k0 : Fin 128) : lanes128 (ix3 rr n k0) = BitVec.ofNat 32 k0.val :=
  iota_single_apply .tc S128x128x128 32 2 iota_S128x128x128_d2_w32 (ix3 rr n k0)

/-! ## The matrix unit's operand indices -/

private theorem lhs_axis0 (j : S128x16x128.Idx) (k : dot_S128x128x16_S128x128x128_S128x16x128_1_1_2_2_0_0.contr.Idx) :
    (dot_S128x128x16_S128x128x128_S128x16x128_1_1_2_2_0_0.lhsIdx j k 0).val = (j 0).val := rfl
private theorem lhs_axis1 (j : S128x16x128.Idx) (k : dot_S128x128x16_S128x128x128_S128x16x128_1_1_2_2_0_0.contr.Idx) :
    (dot_S128x128x16_S128x128x128_S128x16x128_1_1_2_2_0_0.lhsIdx j k 1).val = (k ⟨0, by decide⟩).val := rfl
private theorem lhs_axis2 (j : S128x16x128.Idx) (k : dot_S128x128x16_S128x128x128_S128x16x128_1_1_2_2_0_0.contr.Idx) :
    (dot_S128x128x16_S128x128x128_S128x16x128_1_1_2_2_0_0.lhsIdx j k 2).val = (j 1).val := rfl
private theorem rhs_axis0 (j : S128x16x128.Idx) (k : dot_S128x128x16_S128x128x128_S128x16x128_1_1_2_2_0_0.contr.Idx) :
    (dot_S128x128x16_S128x128x128_S128x16x128_1_1_2_2_0_0.rhsIdx j k 0).val = (j 0).val := rfl
private theorem rhs_axis1 (j : S128x16x128.Idx) (k : dot_S128x128x16_S128x128x128_S128x16x128_1_1_2_2_0_0.contr.Idx) :
    (dot_S128x128x16_S128x128x128_S128x16x128_1_1_2_2_0_0.rhsIdx j k 1).val = (k ⟨0, by decide⟩).val := rfl
private theorem rhs_axis2 (j : S128x16x128.Idx) (k : dot_S128x128x16_S128x128x128_S128x16x128_1_1_2_2_0_0.contr.Idx) :
    (dot_S128x128x16_S128x128x128_S128x16x128_1_1_2_2_0_0.rhsIdx j k 2).val = (j 2).val := rfl

/-- At cell (k1, k0) of row rr and column n of the block, the left operand is read at (rr, n, k1). -/
private theorem lhsIdx_eq (rr : Fin 128) (k1 : Fin 16) (k0 : Fin 128) (n : Fin 128) :
    dot_S128x128x16_S128x128x128_S128x16x128_1_1_2_2_0_0.lhsIdx (ix3 rr k1 k0) ((contrEquiv1 dot_S128x128x16_S128x128x128_S128x16x128_1_1_2_2_0_0 128 rfl rfl).symm n) = ix3 rr n k1 := by
  have hk := contrEquiv1_symm_val dot_S128x128x16_S128x128x128_S128x16x128_1_1_2_2_0_0 128 rfl rfl n
  funext ax; apply Fin.ext
  match ax with
  | ⟨0, _⟩ => exact lhs_axis0 _ _
  | ⟨1, _⟩ => exact (lhs_axis1 _ _).trans hk
  | ⟨2, _⟩ => exact lhs_axis2 _ _

/-- and the right operand at (rr, n, k0). -/
private theorem rhsIdx_eq (rr : Fin 128) (k1 : Fin 16) (k0 : Fin 128) (n : Fin 128) :
    dot_S128x128x16_S128x128x128_S128x16x128_1_1_2_2_0_0.rhsIdx (ix3 rr k1 k0) ((contrEquiv1 dot_S128x128x16_S128x128x128_S128x16x128_1_1_2_2_0_0 128 rfl rfl).symm n) = ix3 rr n k0 := by
  have hk := contrEquiv1_symm_val dot_S128x128x16_S128x128x128_S128x16x128_1_1_2_2_0_0 128 rfl rfl n
  funext ax; apply Fin.ext
  match ax with
  | ⟨0, _⟩ => exact rhs_axis0 _ _
  | ⟨1, _⟩ => exact (rhs_axis1 _ _).trans hk
  | ⟨2, _⟩ => exact rhs_axis2 _ _

/-- The predicted accumulator's payload at a cell, over any high-part and low-part words and any intensity: what it
    held plus the sum over the block's columns of the products of the two one-hot factors and the intensity. -/
private theorem pay16_apply (lo : IVec S128x128 32) (y : FVec Ideal S128x128 .f32) (hi : IVec S128x128x16 32)
    (prev : FVec Ideal S128x16x128 .f32) (rr : Fin 128) (k1 : Fin 16) (k0 : Fin 128) :
    k0_pay16 (F := Ideal) lo y lanes16 lanes128 hi prev (ix3 rr k1 k0)
      = prev (ix3 rr k1 k0) + ∑ n : Fin 128,
          (hot (IntOp.cmpi .eq (hi (ix3 rr n k1)) (BitVec.ofNat 32 k1.val)) * y (ix2 rr n))
            * hot (IntOp.cmpi .eq (lo (ix2 rr n)) (BitVec.ofNat 32 k0.val)) := by
  unfold k0_pay16
  rw [shapeCast_self]
  refine congrArg (prev (ix3 rr k1 k0) + ·) ?_
  refine (Ideal.matmul_constant_zero_apply dot_S128x128x16_S128x128x128_S128x16x128_1_1_2_2_0_0 none _ _ (ix3 rr k1 k0)).trans ?_
  rw [← Equiv.sum_comp (contrEquiv1 dot_S128x128x16_S128x128x128_S128x16x128_1_1_2_2_0_0 128 rfl rfl).symm]
  refine Finset.sum_congr rfl fun n _ => ?_
  rw [lhsIdx_eq, rhsIdx_eq]
  have e1 : lanes16 (ix3 rr n k1) = BitVec.ofNat 32 k1.val := lanes16_apply rr n k1
  have e2 : lanes128 (ix3 rr n k0) = BitVec.ofNat 32 k0.val := lanes128_apply rr n k0
  have e3 : broadcastTo S128x128x16 (truncf (F := Ideal) .bf16 (shapeCast S128x128x1 y shapeCasts_S128x128_S128x128x1)
      bitsLt_bf16_f32) broadcasts_S128x128x1_S128x128x16 (ix3 rr n k1) = y (ix2 rr n) :=
    (broadcastTo_ab1_abc_apply _ _ rr n k1).trans (shapeCast_ab_ab1_apply y _ rr n 0)
  have e4 : broadcastTo S128x128x128 (shapeCast S128x128x1 lo shapeCasts_S128x128_S128x128x1)
      broadcasts_S128x128x1_S128x128x128 (ix3 rr n k0) = lo (ix2 rr n) := lift_apply lo _ _ rr n k0
  show (hot (IntOp.cmpi .eq (hi (ix3 rr n k1)) (lanes16 (ix3 rr n k1)))
      * broadcastTo S128x128x16 (truncf (F := Ideal) .bf16 (shapeCast S128x128x1 y shapeCasts_S128x128_S128x128x1)
          bitsLt_bf16_f32) broadcasts_S128x128x1_S128x128x16 (ix3 rr n k1))
    * hot (IntOp.cmpi .eq (broadcastTo S128x128x128 (shapeCast S128x128x1 lo shapeCasts_S128x128_S128x128x1)
        broadcasts_S128x128x1_S128x128x128 (ix3 rr n k0)) (lanes128 (ix3 rr n k0))) = _
  rw [e1, e2, e3, e4]

/-- The target accumulator's payload at a cell, likewise. -/
private theorem pay17_apply (hi lo : IVec S128x128 32) (y : FVec Ideal S128x128 .f32)
    (prev : FVec Ideal S128x16x128 .f32) (rr : Fin 128) (k1 : Fin 16) (k0 : Fin 128) :
    k0_pay17 (F := Ideal) hi lo y lanes16 lanes128 prev (ix3 rr k1 k0)
      = prev (ix3 rr k1 k0) + ∑ n : Fin 128,
          (hot (IntOp.cmpi .eq (hi (ix2 rr n)) (BitVec.ofNat 32 k1.val)) * y (ix2 rr n))
            * hot (IntOp.cmpi .eq (lo (ix2 rr n)) (BitVec.ofNat 32 k0.val)) := by
  unfold k0_pay17
  rw [shapeCast_self]
  refine congrArg (prev (ix3 rr k1 k0) + ·) ?_
  refine (Ideal.matmul_constant_zero_apply dot_S128x128x16_S128x128x128_S128x16x128_1_1_2_2_0_0 none _ _ (ix3 rr k1 k0)).trans ?_
  rw [← Equiv.sum_comp (contrEquiv1 dot_S128x128x16_S128x128x128_S128x16x128_1_1_2_2_0_0 128 rfl rfl).symm]
  refine Finset.sum_congr rfl fun n _ => ?_
  rw [lhsIdx_eq, rhsIdx_eq]
  have e1 : lanes16 (ix3 rr n k1) = BitVec.ofNat 32 k1.val := lanes16_apply rr n k1
  have e2 : lanes128 (ix3 rr n k0) = BitVec.ofNat 32 k0.val := lanes128_apply rr n k0
  have e3 : broadcastTo S128x128x16 (truncf (F := Ideal) .bf16 (shapeCast S128x128x1 y shapeCasts_S128x128_S128x128x1)
      bitsLt_bf16_f32) broadcasts_S128x128x1_S128x128x16 (ix3 rr n k1) = y (ix2 rr n) :=
    (broadcastTo_ab1_abc_apply _ _ rr n k1).trans (shapeCast_ab_ab1_apply y _ rr n 0)
  have e4 : broadcastTo S128x128x128 (shapeCast S128x128x1 lo shapeCasts_S128x128_S128x128x1)
      broadcasts_S128x128x1_S128x128x128 (ix3 rr n k0) = lo (ix2 rr n) := lift_apply lo _ _ rr n k0
  have e5 : broadcastTo S128x128x16 (shapeCast S128x128x1 hi shapeCasts_S128x128_S128x128x1)
      broadcasts_S128x128x1_S128x128x16 (ix3 rr n k1) = hi (ix2 rr n) := lift_apply hi _ _ rr n k1
  show (hot (IntOp.cmpi .eq (broadcastTo S128x128x16 (shapeCast S128x128x1 hi shapeCasts_S128x128_S128x128x1)
        broadcasts_S128x128x1_S128x128x16 (ix3 rr n k1)) (lanes16 (ix3 rr n k1)))
      * broadcastTo S128x128x16 (truncf (F := Ideal) .bf16 (shapeCast S128x128x1 y shapeCasts_S128x128_S128x128x1)
          bitsLt_bf16_f32) broadcasts_S128x128x1_S128x128x16 (ix3 rr n k1))
    * hot (IntOp.cmpi .eq (broadcastTo S128x128x128 (shapeCast S128x128x1 lo shapeCasts_S128x128_S128x128x1)
        broadcasts_S128x128x1_S128x128x128 (ix3 rr n k0)) (lanes128 (ix3 rr n k0))) = _
  rw [e1, e2, e3, e4, e5]

/-- The predicted accumulator's update at cell (k1, k0) of row rr. -/
theorem updP_apply (x0 x1 : FVec Ideal S128x128 .f32) (prev : FVec Ideal S128x16x128 .f32)
    (rr : Fin 128) (k1 : Fin 16) (k0 : Fin 128) :
    updP (F := Ideal) x0 x1 prev (ix3 rr k1 k0)
      = prev (ix3 rr k1 k0) + ∑ n : Fin 128, term (x0 (ix2 rr n)) (x1 (ix2 rr n)) k1 k0 := by
  unfold updP
  refine (pay16_apply _ x1 _ prev rr k1 k0).trans ?_
  refine congrArg (prev (ix3 rr k1 k0) + ·) (Finset.sum_congr rfl fun n _ => ?_)
  rw [pay15_apply, pay11_apply]
  rfl

/-- The target accumulator's update at cell (k1, k0) of row rr: the intensity is masked. -/
theorem updT_apply (x2 x3 x4 : FVec Ideal S128x128 .f32) (prev : FVec Ideal S128x16x128 .f32)
    (rr : Fin 128) (k1 : Fin 16) (k0 : Fin 128) :
    updT (F := Ideal) x2 x3 x4 prev (ix3 rr k1 k0)
      = prev (ix3 rr k1 k0) + ∑ n : Fin 128, term (x2 (ix2 rr n)) (x3 (ix2 rr n) * x4 (ix2 rr n)) k1 k0 := by
  unfold updT
  refine (pay17_apply _ _ _ prev rr k1 k0).trans ?_
  refine congrArg (prev (ix3 rr k1 k0) + ·) (Finset.sum_congr rfl fun n _ => ?_)
  rw [pay12_apply, pay13_apply, pay14_apply]
  rfl

end Cert.KernelIdeal.Pay

end
-- ==== Proof.KPayFin.lean ====
/-
  The kernel's finishing payload read at a row, over the extended reals: the two-stage lane sums are sums over the
  row's 16 x 128 cells, the keepdims casts and broadcasts carry a row's norm to each of its cells, and what is stored
  is the guarded cosine of the row's two families of cells.
-/
import proofs.«136550_j83373905149952_1_alg».proof.Proof.KPieces
import proofs.«136550_j83373905149952_1_alg».proof.Proof.Spec
import proofs.«136550_j83373905149952_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.TcCoe Idealize.ShloMosaic.ValueIdx
open Cert.KernelIdeal Cert.KernelIdeal.Gen Cert.KernelIdeal.Pieces Cert.BinCos

section Layout
variable {α : Type}

/-- An `[a, 1]` column cast to `[a, 1, 1]` reads, at `(i, u, w)`, the column at row `i`, whatever the two unit
    coordinates: both sit at row-major position `i`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u w : Fin 1) :
    shapeCast ⟨3, ![a, 1, 1]⟩ x h (ix3 i u w) = x (ix2 i (0 : Fin 1)) :=
  shapeCast_apply x h _ _ (by
    have hu : u.val = 0 := by omega
    have hw : w.val = 0 := by omega
    rw [Shape.rowMajor_val_three, Shape.rowMajor_val_two]
    show i.val * 1 + 0 = (i.val * 1 + u.val) * 1 + w.val
    omega)

/-- An `[a, 1, 1]` array broadcast to `[a, b, c]` reads, at `(p, q, r)`, the operand at `(p, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Layout

/-- The sum of a `[128, 16, 128]` array over its last axis and then over its middle axis, as the kernel takes it. -/
def rowSum (v : FVec Ideal S128x16x128 .f32) : FVec Ideal S128 .f32 :=
  multiReduction .add [1] S128
    (multiReduction .add [2] S128x16 v 0x00000000#32 reduces_S128x16x128_S128x16 (.inl rfl) rfl)
    0x00000000#32 reduces_S128x16_S128 (.inl rfl) rfl

/-- The two-stage sum at row `rr` is the sum over the row's 16 x 128 cells. -/
theorem rowSum_apply (v : FVec Ideal S128x16x128 .f32) (rr : Fin 128) :
    rowSum v (ix1 rr) = ∑ k : Fin 16 × Fin 128, v (ix3 rr k.1 k.2) := by
  unfold rowSum
  refine (Ideal.multiReduction_add_single _ 0x00000000#32 reduces_S128x16_S128 (.inl rfl) rfl (ix1 rr)).trans ?_
  rw [Fintype.sum_prod_type]
  refine Finset.sum_congr rfl fun k1 _ => ?_
  refine (Ideal.multiReduction_add_single v 0x00000000#32 reduces_S128x16x128_S128x16 (.inl rfl) rfl _).trans ?_
  refine Finset.sum_congr rfl fun k0 _ => ?_
  refine congrArg v (funext fun a => ?_)
  match a with
  | ⟨0, _⟩ => rfl
  | ⟨1, _⟩ => rfl
  | ⟨2, _⟩ => rfl

/-- The normalised predicted family: each cell divided by its row's norm plus eps. -/
theorem pay2_apply (s : FVec Ideal S128x16x128 .f32) (rr : Fin 128) (k1 : Fin 16) (k0 : Fin 128) :
    k0_pay2 (F := Ideal) s (ix3 rr k1 k0)
      = Ideal.div (s (ix3 rr k1 k0))
          (Ideal.sqrt (∑ k : Fin 16 × Fin 128, s (ix3 rr k.1 k.2) * s (ix3 rr k.1 k.2)) + eps) := by
  unfold k0_pay2
  show Ideal.div (s (ix3 rr k1 k0)) (broadcastTo S128x16x128 _ broadcasts_S128x1x1_S128x16x128 (ix3 rr k1 k0)) = _
  refine congrArg (Ideal.div (s (ix3 rr k1 k0))) ?_
  refine (broadcastTo_a11_abc_apply _ _ rr k1 k0).trans ?_
  show shapeCast S128x1x1 _ shapeCasts_S128x1_S128x1x1 (ix3 rr (0 : Fin 1) (0 : Fin 1)) + eps = _
  refine congrArg (· + eps) ?_
  refine (shapeCast_a1_a11_apply _ _ rr 0 0).trans ?_
  show Ideal.sqrt (shapeCast S128x1 _ shapeCasts_S128_S128x1 (ix2 rr (0 : Fin 1))) = _
  refine congrArg Ideal.sqrt ?_
  refine (Cert.LibKeepdims.shapeCast_a_a1_apply _ _ rr 0).trans ?_
  exact rowSum_apply (mulf s s) rr

/-- The normalised target family likewise. -/
theorem pay3_apply (s : FVec Ideal S128x16x128 .f32) (rr : Fin 128) (k1 : Fin 16) (k0 : Fin 128) :
    k0_pay3 (F := Ideal) s (ix3 rr k1 k0)
      = Ideal.div (s (ix3 rr k1 k0))
          (Ideal.sqrt (∑ k : Fin 16 × Fin 128, s (ix3 rr k.1 k.2) * s (ix3 rr k.1 k.2)) + eps) := by
  unfold k0_pay3
  show Ideal.div (s (ix3 rr k1 k0)) (broadcastTo S128x16x128 _ broadcasts_S128x1x1_S128x16x128 (ix3 rr k1 k0)) = _
  refine congrArg (Ideal.div (s (ix3 rr k1 k0))) ?_
  refine (broadcastTo_a11_abc_apply _ _ rr k1 k0).trans ?_
  show shapeCast S128x1x1 _ shapeCasts_S128x1_S128x1x1 (ix3 rr (0 : Fin 1) (0 : Fin 1)) + eps = _
  refine congrArg (· + eps) ?_
  refine (shapeCast_a1_a11_apply _ _ rr 0 0).trans ?_
  show Ideal.sqrt (shapeCast S128x1 _ shapeCasts_S128_S128x1 (ix2 rr (0 : Fin 1))) = _
  refine congrArg Ideal.sqrt ?_
  refine (Cert.LibKeepdims.shapeCast_a_a1_apply _ _ rr 0).trans ?_
  exact rowSum_apply (mulf s s) rr

/-- The inner product of a row's two normalised families, as a column. -/
theorem pay4_apply (s0 s1 : FVec Ideal S128x16x128 .f32) (rr : Fin 128) (u : Fin 1) :
    k0_pay4 (F := Ideal) s0 s1 (ix2 rr u)
      = ∑ k : Fin 16 × Fin 128,
          Ideal.div (s0 (ix3 rr k.1 k.2))
              (Ideal.sqrt (∑ j : Fin 16 × Fin 128, s0 (ix3 rr j.1 j.2) * s0 (ix3 rr j.1 j.2)) + eps)
            * Ideal.div (s1 (ix3 rr k.1 k.2))
                (Ideal.sqrt (∑ j : Fin 16 × Fin 128, s1 (ix3 rr j.1 j.2) * s1 (ix3 rr j.1 j.2)) + eps) := by
  unfold k0_pay4
  refine (Cert.LibKeepdims.shapeCast_a_a1_apply _ _ rr u).trans ?_
  refine (rowSum_apply (mulf (k0_pay2 s0) (k0_pay3 s1)) rr).trans ?_
  refine Finset.sum_congr rfl fun k _ => ?_
  refine (mulf_apply _ _ _).trans ?_
  rw [pay2_apply, pay3_apply]

/-- The floored norm of a row's normalised predicted family, as a column. -/
theorem pay5_apply (s : FVec Ideal S128x16x128 .f32) (rr : Fin 128) (u : Fin 1) :
    k0_pay5 (F := Ideal) s (ix2 rr u)
      = max (Ideal.sqrt (∑ k : Fin 16 × Fin 128,
          Ideal.div (s (ix3 rr k.1 k.2))
              (Ideal.sqrt (∑ j : Fin 16 × Fin 128, s (ix3 rr j.1 j.2) * s (ix3 rr j.1 j.2)) + eps)
            * Ideal.div (s (ix3 rr k.1 k.2))
                (Ideal.sqrt (∑ j : Fin 16 × Fin 128, s (ix3 rr j.1 j.2) * s (ix3 rr j.1 j.2)) + eps))) eps := by
  unfold k0_pay5
  refine (maximumf_apply _ _ _).trans ?_
  refine congrArg (fun t => max (Ideal.sqrt t) eps) ?_
  refine (Cert.LibKeepdims.shapeCast_a_a1_apply _ _ rr u).trans ?_
  refine (rowSum_apply (mulf (k0_pay2 s) (k0_pay2 s)) rr).trans ?_
  refine Finset.sum_congr rfl fun k _ => ?_
  refine (mulf_apply _ _ _).trans ?_
  rw [pay2_apply]

/-- The floored norm of a row's normalised target family, as a column. -/
theorem pay6_apply (s : FVec Ideal S128x16x128 .f32) (rr : Fin 128) (u : Fin 1) :
    k0_pay6 (F := Ideal) s (ix2 rr u)
      = max (Ideal.sqrt (∑ k : Fin 16 × Fin 128,
          Ideal.div (s (ix3 rr k.1 k.2))
              (Ideal.sqrt (∑ j : Fin 16 × Fin 128, s (ix3 rr j.1 j.2) * s (ix3 rr j.1 j.2)) + eps)
            * Ideal.div (s (ix3 rr k.1 k.2))
                (Ideal.sqrt (∑ j : Fin 16 × Fin 128, s (ix3 rr j.1 j.2) * s (ix3 rr j.1 j.2)) + eps))) eps := by
  unfold k0_pay6
  refine (maximumf_apply _ _ _).trans ?_
  refine congrArg (fun t => max (Ideal.sqrt t) eps) ?_
  refine (Cert.LibKeepdims.shapeCast_a_a1_apply _ _ rr u).trans ?_
  refine (rowSum_apply (mulf (k0_pay3 s) (k0_pay3 s)) rr).trans ?_
  refine Finset.sum_congr rfl fun k _ => ?_
  refine (mulf_apply _ _ _).trans ?_
  rw [pay3_apply]

/-- The finishing payload at row rr: the guarded cosine of the row's cells. -/
theorem fin_apply (s0 s1 : FVec Ideal S128x16x128 .f32) (rr : Fin 128) (u : Fin 1) :
    fin (F := Ideal) s0 s1 (ix2 rr u)
      = cosOn (fun k : Fin 16 × Fin 128 => s0 (ix3 rr k.1 k.2)) (fun k : Fin 16 × Fin 128 => s1 (ix3 rr k.1 k.2)) := by
  unfold fin k0_pay1 cosOn
  refine (divf_apply _ _ _).trans ?_
  refine congrArg₂ Ideal.div ?_ ?_
  · exact pay4_apply s0 s1 rr u
  · refine (mulf_apply _ _ _).trans ?_
    exact congrArg₂ (· * ·) (pay5_apply s0 rr u) (pay6_apply s1 rr u)

end Cert.KernelIdeal.Pay

end
-- ==== Proof.Partial.lean ====
/-
  The histogram of a row accumulated column block by column block. The 4096 columns come in 32 blocks of 128; after
  block j of row block i the accumulator holds, at cell (k1, k0) of the block's row rr, the contributions of the columns
  of blocks 0..j. After the last block that is the whole row's cell: the 32 x 128 columns are all 4096.
-/
import proofs.«136550_j83373905149952_1_alg».proof.Proof.Spec
import Mathlib.Algebra.BigOperators.Fin

noncomputable section

namespace Cert.BinCos

open Idealize.ShloMosaic Idealize.ShloMosaic.ValueIdx

/-- Entry (r, c) of an array, 0 outside it (so that row and column numbers may be plain naturals). -/
def entry (X : Arr) (r c : ℕ) : EReal := if h : r < 2048 ∧ c < 4096 then X (ix2 ⟨r, h.1⟩ ⟨c, h.2⟩) else 0

/-- What column block j contributes to cell (k1, k0) of row rr of row block i: the sum over its 128 columns. -/
def blkterm (P V : ℕ → ℕ → EReal) (i j : ℕ) (rr : Fin 128) (k1 : Fin 16) (k0 : Fin 128) : EReal :=
  ∑ col : Fin 128, term (P (128 * i + rr.val) (128 * j + col.val)) (V (128 * i + rr.val) (128 * j + col.val)) k1 k0

/-- The accumulator after column block j: block 0's contribution, then one block's more each step. -/
def psum (P V : ℕ → ℕ → EReal) (i : ℕ) : ℕ → Fin 128 → Fin 16 → Fin 128 → EReal
  | 0 => fun rr k1 k0 => 0 + blkterm P V i 0 rr k1 k0
  | j + 1 => fun rr k1 k0 => psum P V i j rr k1 k0 + blkterm P V i (j + 1) rr k1 k0

/-- The accumulator after column block j is the sum of the contributions of blocks 0..j. -/
private theorem psum_eq_sum (P V : ℕ → ℕ → EReal) (i : ℕ) (rr : Fin 128) (k1 : Fin 16) (k0 : Fin 128) :
    ∀ j : ℕ, psum P V i j rr k1 k0 = ∑ j' : Fin (j + 1), blkterm P V i j'.val rr k1 k0
  | 0 => by
    show 0 + blkterm P V i 0 rr k1 k0 = _
    rw [zero_add, Fin.sum_univ_one]
    rfl
  | j + 1 => by
    show psum P V i j rr k1 k0 + blkterm P V i (j + 1) rr k1 k0 = _
    rw [psum_eq_sum P V i rr k1 k0 j, Fin.sum_univ_castSucc (n := j + 1)]
    rfl

/-- After the 32nd block: the sum over all 32 blocks. -/
private theorem psum_31 (P V : ℕ → ℕ → EReal) (i : ℕ) (rr : Fin 128) (k1 : Fin 16) (k0 : Fin 128) :
    psum P V i 31 rr k1 k0 = ∑ j' : Fin 32, blkterm P V i j'.val rr k1 k0 :=
  psum_eq_sum P V i rr k1 k0 31

/-- Column 128 * j' + col of the row, for block j' and column col of the block: the 32 x 128 pairs are the 4096 columns. -/
private def colEquiv : Fin 32 × Fin 128 ≃ Fin 4096 := finProdFinEquiv

private theorem colEquiv_val (x : Fin 32 × Fin 128) : (colEquiv x).val = 128 * x.1.val + x.2.val :=
  Nat.add_comm _ _

/-- After the 32nd column block the accumulator holds the row's cell. -/
theorem psum_last (X Y : Arr) (Z : ℕ → ℕ → EReal) (i : ℕ) (hi : i < 16) (rr : Fin 128) (k1 : Fin 16) (k0 : Fin 128)
    (hZ : ∀ (r : Fin 2048) (n : Fin 4096), Z r.val n.val = Y (ix2 r n)) :
    psum (entry X) Z i 31 rr k1 k0
      = cell (fun n : Fin 4096 => X (ix2 (⟨128 * i + rr.val, by have := rr.isLt; omega⟩ : Fin 2048) n))
          (fun n : Fin 4096 => Y (ix2 (⟨128 * i + rr.val, by have := rr.isLt; omega⟩ : Fin 2048) n)) k1 k0 := by
  have hr : 128 * i + rr.val < 2048 := by have := rr.isLt; omega
  rw [psum_31]
  unfold blkterm cell
  rw [← Fintype.sum_prod_type']
  refine Fintype.sum_equiv colEquiv _ _ (fun x => ?_)
  rw [← colEquiv_val x]
  have h1 : entry X (128 * i + rr.val) (colEquiv x).val = X (ix2 (⟨128 * i + rr.val, hr⟩ : Fin 2048) (colEquiv x)) := by
    unfold entry
    rw [dif_pos ⟨hr, (colEquiv x).isLt⟩]
  have h2 : Z (128 * i + rr.val) (colEquiv x).val = Y (ix2 (⟨128 * i + rr.val, hr⟩ : Fin 2048) (colEquiv x)) :=
    hZ ⟨128 * i + rr.val, hr⟩ (colEquiv x)
  rw [h1, h2]

end Cert.BinCos

end
-- ==== Proof.KBlocks.lean ====
/-
  An input block read at an index of its array: at grid point t the row block is t / 32 and the column block t % 32,
  and entry (rr, col) of each of the five input blocks is entry (128 * (t / 32) + rr, 128 * (t % 32) + col) of the
  input array the window stages.
-/
import proofs.«136550_j83373905149952_1_alg».proof.Proof.Gen.KernelIdeal.Frame
import proofs.«136550_j83373905149952_1_alg».proof.Proof.Partial
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.BinCos

variable (m : (ℓ : Loc nD τ sig) → Buf (Elt Ideal) ℓ)

/-- The five input arrays as the region finds them. -/
abbrev arr0 (c : Dev nD) : Arr := V m c main_arg0
abbrev arr1 (c : Dev nD) : Arr := V m c main_arg1
abbrev arr2 (c : Dev nD) : Arr := V m c main_arg2
abbrev arr3 (c : Dev nD) : Arr := V m c main_arg3
abbrev arr4 (c : Dev nD) : Arr := V m c main_arg4

/-- The five input blocks at a grid point, at their literal type. -/
abbrev blk0 (c : Dev nD) (t : Fin cfg0.N) : FVec Ideal S128x128 .f32 := iblk m c 0 t
abbrev blk1 (c : Dev nD) (t : Fin cfg0.N) : FVec Ideal S128x128 .f32 := iblk m c 1 t
abbrev blk2 (c : Dev nD) (t : Fin cfg0.N) : FVec Ideal S128x128 .f32 := iblk m c 2 t
abbrev blk3 (c : Dev nD) (t : Fin cfg0.N) : FVec Ideal S128x128 .f32 := iblk m c 3 t
abbrev blk4 (c : Dev nD) (t : Fin cfg0.N) : FVec Ideal S128x128 .f32 := iblk m c 4 t

/-- Window 0 reads, at grid point t, row block t / 32 and column block t % 32 (decided over the 512 points). -/
theorem point_block0 : ∀ t : Fin cfg0.N, win0_0.index t (0 : Fin 2) = t.val / 32 ∧ win0_0.index t (1 : Fin 2) = t.val % 32 :=
  (by decide +kernel : ∀ t : Fin grid0.N, _)

/-- Window 1 reads, at grid point t, row block t / 32 and column block t % 32 (decided over the 512 points). -/
theorem point_block1 : ∀ t : Fin cfg0.N, win0_1.index t (0 : Fin 2) = t.val / 32 ∧ win0_1.index t (1 : Fin 2) = t.val % 32 :=
  (by decide +kernel : ∀ t : Fin grid0.N, _)

/-- Window 2 reads, at grid point t, row block t / 32 and column block t % 32 (decided over the 512 points). -/
theorem point_block2 : ∀ t : Fin cfg0.N, win0_2.index t (0 : Fin 2) = t.val / 32 ∧ win0_2.index t (1 : Fin 2) = t.val % 32 :=
  (by decide +kernel : ∀ t : Fin grid0.N, _)

/-- Window 3 reads, at grid point t, row block t / 32 and column block t % 32 (decided over the 512 points). -/
theorem point_block3 : ∀ t : Fin cfg0.N, win0_3.index t (0 : Fin 2) = t.val / 32 ∧ win0_3.index t (1 : Fin 2) = t.val % 32 :=
  (by decide +kernel : ∀ t : Fin grid0.N, _)

/-- Window 4 reads, at grid point t, row block t / 32 and column block t % 32 (decided over the 512 points). -/
theorem point_block4 : ∀ t : Fin cfg0.N, win0_4.index t (0 : Fin 2) = t.val / 32 ∧ win0_4.index t (1 : Fin 2) = t.val % 32 :=
  (by decide +kernel : ∀ t : Fin grid0.N, _)

theorem blk0_apply (c : Dev nD) (t : Fin cfg0.N) (rr col : Fin 128) :
    blk0 m c t (ix2 rr col) = entry (arr0 m c) (128 * (t.val / 32) + rr.val) (128 * (t.val % 32) + col.val) := by
  have hN : cfg0.N = 512 := N_0
  have ht : t.val < 512 := hN ▸ t.isLt
  have hr : 128 * (t.val / 32) + rr.val < 2048 := by omega
  have hc : 128 * (t.val % 32) + col.val < 4096 := by omega
  unfold entry
  rw [dif_pos ⟨hr, hc⟩]
  unfold blk0 iblk
  rw [View.read_apply]
  show V m c main_arg0 _ = V m c main_arg0 _
  congr 1
  funext a
  apply Fin.ext
  match a with
  | ⟨0, _⟩ => show win0_0.index t 0 * 128 + 1 * rr.val = 128 * (t.val / 32) + rr.val; rw [(point_block0 t).1]; omega
  | ⟨1, _⟩ => show win0_0.index t 1 * 128 + 1 * col.val = 128 * (t.val % 32) + col.val; rw [(point_block0 t).2]; omega

theorem blk1_apply (c : Dev nD) (t : Fin cfg0.N) (rr col : Fin 128) :
    blk1 m c t (ix2 rr col) = entry (arr1 m c) (128 * (t.val / 32) + rr.val) (128 * (t.val % 32) + col.val) := by
  have hN : cfg0.N = 512 := N_0
  have ht : t.val < 512 := hN ▸ t.isLt
  have hr : 128 * (t.val / 32) + rr.val < 2048 := by omega
  have hc : 128 * (t.val % 32) + col.val < 4096 := by omega
  unfold entry
  rw [dif_pos ⟨hr, hc⟩]
  unfold blk1 iblk
  rw [View.read_apply]
  show V m c main_arg1 _ = V m c main_arg1 _
  congr 1
  funext a
  apply Fin.ext
  match a with
  | ⟨0, _⟩ => show win0_1.index t 0 * 128 + 1 * rr.val = 128 * (t.val / 32) + rr.val; rw [(point_block1 t).1]; omega
  | ⟨1, _⟩ => show win0_1.index t 1 * 128 + 1 * col.val = 128 * (t.val % 32) + col.val; rw [(point_block1 t).2]; omega

theorem blk2_apply (c : Dev nD) (t : Fin cfg0.N) (rr col : Fin 128) :
    blk2 m c t (ix2 rr col) = entry (arr2 m c) (128 * (t.val / 32) + rr.val) (128 * (t.val % 32) + col.val) := by
  have hN : cfg0.N = 512 := N_0
  have ht : t.val < 512 := hN ▸ t.isLt
  have hr : 128 * (t.val / 32) + rr.val < 2048 := by omega
  have hc : 128 * (t.val % 32) + col.val < 4096 := by omega
  unfold entry
  rw [dif_pos ⟨hr, hc⟩]
  unfold blk2 iblk
  rw [View.read_apply]
  show V m c main_arg2 _ = V m c main_arg2 _
  congr 1
  funext a
  apply Fin.ext
  match a with
  | ⟨0, _⟩ => show win0_2.index t 0 * 128 + 1 * rr.val = 128 * (t.val / 32) + rr.val; rw [(point_block2 t).1]; omega
  | ⟨1, _⟩ => show win0_2.index t 1 * 128 + 1 * col.val = 128 * (t.val % 32) + col.val; rw [(point_block2 t).2]; omega

theorem blk3_apply (c : Dev nD) (t : Fin cfg0.N) (rr col : Fin 128) :
    blk3 m c t (ix2 rr col) = entry (arr3 m c) (128 * (t.val / 32) + rr.val) (128 * (t.val % 32) + col.val) := by
  have hN : cfg0.N = 512 := N_0
  have ht : t.val < 512 := hN ▸ t.isLt
  have hr : 128 * (t.val / 32) + rr.val < 2048 := by omega
  have hc : 128 * (t.val % 32) + col.val < 4096 := by omega
  unfold entry
  rw [dif_pos ⟨hr, hc⟩]
  unfold blk3 iblk
  rw [View.read_apply]
  show V m c main_arg3 _ = V m c main_arg3 _
  congr 1
  funext a
  apply Fin.ext
  match a with
  | ⟨0, _⟩ => show win0_3.index t 0 * 128 + 1 * rr.val = 128 * (t.val / 32) + rr.val; rw [(point_block3 t).1]; omega
  | ⟨1, _⟩ => show win0_3.index t 1 * 128 + 1 * col.val = 128 * (t.val % 32) + col.val; rw [(point_block3 t).2]; omega

theorem blk4_apply (c : Dev nD) (t : Fin cfg0.N) (rr col : Fin 128) :
    blk4 m c t (ix2 rr col) = entry (arr4 m c) (128 * (t.val / 32) + rr.val) (128 * (t.val % 32) + col.val) := by
  have hN : cfg0.N = 512 := N_0
  have ht : t.val < 512 := hN ▸ t.isLt
  have hr : 128 * (t.val / 32) + rr.val < 2048 := by omega
  have hc : 128 * (t.val % 32) + col.val < 4096 := by omega
  unfold entry
  rw [dif_pos ⟨hr, hc⟩]
  unfold blk4 iblk
  rw [View.read_apply]
  show V m c main_arg4 _ = V m c main_arg4 _
  congr 1
  funext a
  apply Fin.ext
  match a with
  | ⟨0, _⟩ => show win0_4.index t 0 * 128 + 1 * rr.val = 128 * (t.val / 32) + rr.val; rw [(point_block4 t).1]; omega
  | ⟨1, _⟩ => show win0_4.index t 1 * 128 + 1 * col.val = 128 * (t.val % 32) + col.val; rw [(point_block4 t).2]; omega

end Cert.KernelIdeal.Blocks

end
-- ==== Proof.KValue.lean ====
/-
  What the kernel's run leaves in its result, as a value. Grid point t works on row block t / 32 and column block
  t % 32. By induction over the points, after point t the two accumulators hold, at cell (k1, k0) of row rr, the
  contributions of column blocks 0 .. t % 32 of row 128 * (t / 32) + rr; at the last column block that is the row's
  whole padded histogram, and the output column written there is the row's guarded cosine over the cells. Those
  output blocks tile the [2048, 1] result of the region, and the host operations after it take one minus the mean.
-/
import proofs.«136550_j83373905149952_1_alg».proof.Proof.KPieces
import proofs.«136550_j83373905149952_1_alg».proof.Proof.KPayUpd
import proofs.«136550_j83373905149952_1_alg».proof.Proof.KPayFin
import proofs.«136550_j83373905149952_1_alg».proof.Proof.KBlocks
import proofs.«136550_j83373905149952_1_alg».proof.Proof.Partial
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Pay Cert.KernelIdeal.Blocks Cert.BinCos

variable (m : (ℓ : Loc nD τ sig) → Buf (Elt Ideal) ℓ) (ρ : Dev nD → PrngReg)

/-- The masked target intensity at row r, column k. -/
def tv (c : Dev nD) : ℕ → ℕ → EReal := fun r k => entry (arr3 m c) r k * entry (arr4 m c) r k

/-! ## One column block's contribution, from the blocks' entries -/

theorem blockP (c : Dev nD) (t : Fin cfg0.N) (rr : Fin 128) (k1 : Fin 16) (k0 : Fin 128) :
    ∑ col : Fin 128, term (blk0 m c t (ix2 rr col)) (blk1 m c t (ix2 rr col)) k1 k0
      = blkterm (entry (arr0 m c)) (entry (arr1 m c)) (t.val / 32) (t.val % 32) rr k1 k0 := by
  unfold blkterm
  exact Finset.sum_congr rfl fun col _ => by rw [blk0_apply, blk1_apply]

theorem blockT (c : Dev nD) (t : Fin cfg0.N) (rr : Fin 128) (k1 : Fin 16) (k0 : Fin 128) :
    ∑ col : Fin 128, term (blk2 m c t (ix2 rr col)) (blk3 m c t (ix2 rr col) * blk4 m c t (ix2 rr col)) k1 k0
      = blkterm (entry (arr2 m c)) (tv m c) (t.val / 32) (t.val % 32) rr k1 k0 := by
  unfold blkterm tv
  exact Finset.sum_congr rfl fun col _ => by rw [blk2_apply, blk3_apply, blk4_apply]

/-- An update of the predicted accumulator at point t adds the point's column block to what it held. -/
theorem stepP (c : Dev nD) (t : Fin cfg0.N) (prev : FVec Ideal S128x16x128 .f32) (rr : Fin 128) (k1 : Fin 16) (k0 : Fin 128) :
    updP (F := Ideal) (blk0 m c t) (blk1 m c t) prev (ix3 rr k1 k0)
      = prev (ix3 rr k1 k0) + blkterm (entry (arr0 m c)) (entry (arr1 m c)) (t.val / 32) (t.val % 32) rr k1 k0 :=
  (updP_apply (blk0 m c t) (blk1 m c t) prev rr k1 k0).trans (congrArg (prev (ix3 rr k1 k0) + ·) (blockP m c t rr k1 k0))

theorem stepT (c : Dev nD) (t : Fin cfg0.N) (prev : FVec Ideal S128x16x128 .f32) (rr : Fin 128) (k1 : Fin 16) (k0 : Fin 128) :
    updT (F := Ideal) (blk2 m c t) (blk3 m c t) (blk4 m c t) prev (ix3 rr k1 k0)
      = prev (ix3 rr k1 k0) + blkterm (entry (arr2 m c)) (tv m c) (t.val / 32) (t.val % 32) rr k1 k0 :=
  (updT_apply (blk2 m c t) (blk3 m c t) (blk4 m c t) prev rr k1 k0).trans (congrArg (prev (ix3 rr k1 k0) + ·) (blockT m c t rr k1 k0))

/-- The accumulator one column block on: the point before is in the same row block, one column block back. -/
theorem psum_step (P V : ℕ → ℕ → EReal) (n : ℕ) (h : ¬n % 32 = 0) (rr : Fin 128) (k1 : Fin 16) (k0 : Fin 128) :
    psum P V ((n - 1) / 32) ((n - 1) % 32) rr k1 k0 + blkterm P V (n / 32) (n % 32) rr k1 k0
      = psum P V (n / 32) (n % 32) rr k1 k0 := by
  obtain ⟨j, hj⟩ : ∃ j, n % 32 = j + 1 := ⟨n % 32 - 1, by omega⟩
  have e1 : (n - 1) % 32 = j := by omega
  have e2 : (n - 1) / 32 = n / 32 := by omega
  rw [e1, e2, hj]
  rfl

/-! ## The accumulators after each point -/

/-- The first column block of a row block. -/
theorem caseA (c : Dev nD) (t : Fin cfg0.N) (h0 : t.val % 32 = 0) (rr : Fin 128) (k1 : Fin 16) (k0 : Fin 128) :
    (outsAt0 m c t.val t.isLt).2.1 (ix3 rr k1 k0)
        = psum (entry (arr0 m c)) (entry (arr1 m c)) (t.val / 32) (t.val % 32) rr k1 k0
    ∧ (outsAt0 m c t.val t.isLt).2.2 (ix3 rr k1 k0)
        = psum (entry (arr2 m c)) (tv m c) (t.val / 32) (t.val % 32) rr k1 k0 := by
  have h1 : ¬t.val % 32 = 31 := by omega
  rw [outsAt0_A m c t h0 h1]
  dsimp only
  constructor
  · refine (congrFun (scratchP_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix3 rr k1 k0)).trans ?_
    refine (stepP m c t (zeroP (F := Ideal)) rr k1 k0).trans ?_
    rw [zeroP_apply, h0]
    rfl
  · refine (congrFun (scratchT_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix3 rr k1 k0)).trans ?_
    refine (stepT m c t (zeroT (F := Ideal)) rr k1 k0).trans ?_
    rw [zeroT_apply, h0]
    rfl

/-- A later column block of a row block: the accumulators the point before left, plus this block. -/
theorem caseBC (c : Dev nD) (t : Fin cfg0.N) (h0 : ¬t.val % 32 = 0)
    (ih : ∀ (rr : Fin 128) (k1 : Fin 16) (k0 : Fin 128),
      (outsAt0 m c (t.val - 1) (Nat.lt_of_le_of_lt (Nat.sub_le _ _) t.isLt)).2.1 (ix3 rr k1 k0)
          = psum (entry (arr0 m c)) (entry (arr1 m c)) ((t.val - 1) / 32) ((t.val - 1) % 32) rr k1 k0
      ∧ (outsAt0 m c (t.val - 1) (Nat.lt_of_le_of_lt (Nat.sub_le _ _) t.isLt)).2.2 (ix3 rr k1 k0)
          = psum (entry (arr2 m c)) (tv m c) ((t.val - 1) / 32) ((t.val - 1) % 32) rr k1 k0)
    (rr : Fin 128) (k1 : Fin 16) (k0 : Fin 128) :
    (outsAt0 m c t.val t.isLt).2.1 (ix3 rr k1 k0)
        = psum (entry (arr0 m c)) (entry (arr1 m c)) (t.val / 32) (t.val % 32) rr k1 k0
    ∧ (outsAt0 m c t.val t.isLt).2.2 (ix3 rr k1 k0)
        = psum (entry (arr2 m c)) (tv m c) (t.val / 32) (t.val % 32) rr k1 k0 := by
  by_cases h1 : t.val % 32 = 31
  · rw [outsAt0_C m c t h0 h1]
    dsimp only
    constructor
    · refine (congrFun (scratchP_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix3 rr k1 k0)).trans ?_
      refine (stepP m c t _ rr k1 k0).trans ?_
      rw [(ih rr k1 k0).1]
      exact psum_step _ _ t.val h0 rr k1 k0
    · refine (congrFun (scratchT_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix3 rr k1 k0)).trans ?_
      refine (stepT m c t _ rr k1 k0).trans ?_
      rw [(ih rr k1 k0).2]
      exact psum_step _ _ t.val h0 rr k1 k0
  · rw [outsAt0_B m c t h0 h1]
    dsimp only
    constructor
    · refine (congrFun (scratchP_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))) (ix3 rr k1 k0)).trans ?_
      refine (stepP m c t _ rr k1 k0).trans ?_
      rw [(ih rr k1 k0).1]
      exact psum_step _ _ t.val h0 rr k1 k0
    · refine (congrFun (scratchT_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))) (ix3 rr k1 k0)).trans ?_
      refine (stepT m c t _ rr k1 k0).trans ?_
      rw [(ih rr k1 k0).2]
      exact psum_step _ _ t.val h0 rr k1 k0

/-- After every point the accumulators hold the partial histograms of the point's row block up to its column block. -/
theorem scratch_eq (c : Dev nD) : ∀ (n : ℕ) (hn : n < cfg0.N) (rr : Fin 128) (k1 : Fin 16) (k0 : Fin 128),
    (outsAt0 m c n hn).2.1 (ix3 rr k1 k0) = psum (entry (arr0 m c)) (entry (arr1 m c)) (n / 32) (n % 32) rr k1 k0
    ∧ (outsAt0 m c n hn).2.2 (ix3 rr k1 k0) = psum (entry (arr2 m c)) (tv m c) (n / 32) (n % 32) rr k1 k0
  | 0, hn, rr, k1, k0 => caseA m c ⟨0, hn⟩ rfl rr k1 k0
  | n + 1, hn, rr, k1, k0 => by
    by_cases h0 : (n + 1) % 32 = 0
    · exact caseA m c ⟨n + 1, hn⟩ h0 rr k1 k0
    · exact caseBC m c ⟨n + 1, hn⟩ h0 (fun rr k1 k0 => scratch_eq c n (Nat.lt_of_succ_lt hn) rr k1 k0) rr k1 k0

/-! ## The output column -/

/-- The region's result array: row r holds the row's guarded cosine over the cells. -/
def outArr (c : Dev nD) : S2048x1.Idx → EReal :=
  fun i => rowcosCells (arr0 m c) (arr1 m c) (arr2 m c) (arr3 m c) (arr4 m c) ⟨(i 0).val, idx2_lt0 i⟩

/-- The output window's block at point t is row block t / 32 (its one column block is 0). -/
theorem point_block5 : ∀ t : Fin cfg0.N, win0_5.index t (0 : Fin 2) = t.val / 32 ∧ win0_5.index t (1 : Fin 2) = 0 :=
  (by decide +kernel : ∀ t : Fin grid0.N, _)

/-- What the last column block of a row block stores at row y 0 of the block: that row's cosine over the cells,
    the accumulators then holding the row's whole padded histograms. -/
theorem out_at (c : Dev nD) (t : Fin cfg0.N) (h0 : ¬t.val % 32 = 0) (h1 : t.val % 32 = 31) (y : S128x1.Idx)
    (hr : 128 * (t.val / 32) + (y 0).val < 2048) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 y
      = rowcosCells (arr0 m c) (arr1 m c) (arr2 m c) (arr3 m c) (arr4 m c) ⟨128 * (t.val / 32) + (y 0).val, hr⟩ := by
  have hN : cfg0.N = 512 := N_0
  have hi : t.val / 32 < 16 := by have := t.isLt; omega
  obtain ⟨rr, u, rfl⟩ : ∃ (rr : Fin 128) (u : Fin 1), y = ix2 rr u := ⟨y 0, y 1, eq_ix2 y⟩
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix2 rr u)).trans ?_
  refine (fin_apply _ _ rr u).trans ?_
  unfold rowcosCells
  refine congrArg₂ (cosOn (ι := Fin 16 × Fin 128)) (funext fun k => ?_) (funext fun k => ?_)
  · refine (stepP m c t _ rr k.1 k.2).trans ?_
    rw [(scratch_eq m c (t.val - 1) (Nat.lt_of_le_of_lt (Nat.sub_le _ _) t.isLt) rr k.1 k.2).1,
      psum_step _ _ t.val h0 rr k.1 k.2, h1]
    exact psum_last (arr0 m c) (arr1 m c) (entry (arr1 m c)) (t.val / 32) hi rr k.1 k.2
      (fun r n => by unfold entry; rw [dif_pos ⟨r.isLt, n.isLt⟩])
  · refine (stepT m c t _ rr k.1 k.2).trans ?_
    rw [(scratch_eq m c (t.val - 1) (Nat.lt_of_le_of_lt (Nat.sub_le _ _) t.isLt) rr k.1 k.2).2,
      psum_step _ _ t.val h0 rr k.1 k.2, h1]
    exact psum_last (arr2 m c) (fun i => arr3 m c i * arr4 m c i) (tv m c) (t.val / 32) hi rr k.1 k.2
      (fun r n => by unfold tv entry; rw [dif_pos ⟨r.isLt, n.isLt⟩, dif_pos ⟨r.isLt, n.isLt⟩])

/-- The one write-back of a row block, at its last column block, writes the rows' cosines: a block of `outArr`. -/
theorem flushed_eq (c : Dev nD) (t : Fin cfg0.N) (hf : (cfg0.win 5).flush t = true) :
    (dats m 0 c).flushed 5 t = ((cfg0.win 5).blk t).view.read (Elt Ideal) (outArr m c) := by
  have h1 : t.val % 32 = 31 := (flush0_5 t).mp hf
  have h0 : ¬t.val % 32 = 0 := by omega
  have hN : cfg0.N = 512 := N_0
  obtain ⟨e0, e1⟩ := point_block5 t
  show (cfg0.win 5).cut (grid0.coords t) ((dats m 0 c).after 5 t) = _
  rw [after0_5, outsAt0_C m c t h0 h1]
  dsimp only
  funext y
  have hy : (y 0).val < 128 := (y 0).isLt
  have hr : 128 * (t.val / 32) + (y 0).val < 2048 := by have := t.isLt; omega
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 y = outArr m c (((cfg0.win 5).blk t).view.emb y)
  refine (out_at m c t h0 h1 y hr).trans ?_
  unfold outArr
  refine congrArg (rowcosCells (arr0 m c) (arr1 m c) (arr2 m c) (arr3 m c) (arr4 m c)) (Fin.ext ?_)
  show 128 * (t.val / 32) + (y 0).val = win0_5.index t (0 : Fin 2) * 128 + 1 * (y 0).val
  rw [e0]
  omega

/-- Membership in the output window's block at a point, by coordinates. -/
theorem mem_blk5 (t : Fin cfg0.N) (i : S2048x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v0).slice (win0_5.rect t)).set ↔ _
  rw [View.set_slice_whole, Rect.mem_set_unit]
  exact Iff.rfl

/-- Row r of the result lies in the block written at the last column block of row block r / 128. -/
theorem cover (i : S2048x1.Idx) :
    ∃ t : Fin cfg0.N, (cfg0.win 5).flush t = true ∧ i ∈ ((cfg0.win 5).blk t).view.set := by
  have hN : cfg0.N = 512 := N_0
  have hi0 : (i 0).val < 2048 := idx2_lt0 i
  have hi1 : (i 1).val < 1 := idx2_lt1 i
  have hlt : 32 * ((i 0).val / 128) + 31 < cfg0.N := by omega
  refine ⟨⟨32 * ((i 0).val / 128) + 31, hlt⟩, (flush0_5 _).mpr (by show (32 * ((i 0).val / 128) + 31) % 32 = 31; omega), ?_⟩
  rw [mem_blk5]
  obtain ⟨e0, e1⟩ := point_block5 ⟨32 * ((i 0).val / 128) + 31, hlt⟩
  intro a
  match a with
  | ⟨0, _⟩ =>
    show win0_5.index ⟨32 * ((i 0).val / 128) + 31, hlt⟩ (0 : Fin 2) * 128 ≤ (i 0).val
      ∧ (i 0).val < win0_5.index ⟨32 * ((i 0).val / 128) + 31, hlt⟩ (0 : Fin 2) * 128 + 128
    rw [e0]
    show (32 * ((i 0).val / 128) + 31) / 32 * 128 ≤ (i 0).val ∧ (i 0).val < (32 * ((i 0).val / 128) + 31) / 32 * 128 + 128
    omega
  | ⟨1, _⟩ =>
    show win0_5.index ⟨32 * ((i 0).val / 128) + 31, hlt⟩ (1 : Fin 2) * 1 ≤ (i 1).val
      ∧ (i 1).val < win0_5.index ⟨32 * ((i 0).val / 128) + 31, hlt⟩ (1 : Fin 2) * 1 + 1
    rw [e1]
    omega

/-- So the region's result array ends holding every row's cosine over the cells. -/
theorem final5 (c : Dev nD) : (dats m 0 c).arrAt 5 cfg0.N = outArr m c :=
  (dats m 0 c).arrAt_eq_of_cover 5 (outArr m c) (flushed_eq m c) cover

/-! ## The host operations after the region -/

/-- The kernel program's result: one minus the mean of the rows' cosines over the cells. -/
def resultK (c : Dev nD) : Buf (Elt Ideal) ((c : Thread nD τ).loc main_v3) :=
  fun _ => loss (rowcosCells (arr0 m c) (arr1 m c) (arr2 m c) (arr3 m c) (arr4 m c))

/-- The sum over the [2048, 1] result array is the sum over its 2048 rows. -/
theorem sum_outArr (c : Dev nD) :
    ∑ i : S2048x1.Idx, outArr m c i
      = ∑ r : Fin 2048, rowcosCells (arr0 m c) (arr1 m c) (arr2 m c) (arr3 m c) (arr4 m c) r := by
  rw [sum_idx2 (outArr m c)]
  exact Finset.sum_congr rfl fun a _ => by rw [Fin.sum_univ_one]; rfl

/-- The operations after the region: the total of the output column, divided by 2048, taken from 1. -/
theorem tail_eq (c : Dev nD) :
    Pipeline.afterTail₀ cfgs (dats m) 0 (V0 m) [hostOps1] c main_v3 = resultK m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v0)
      = outArr m c := (Pipeline.withArrays_arr spec0 launch0.win.arr_inj c _ _ 5).trans (final5 m c)
  rw [hw]
  funext j
  show Ideal.ofBits .f32 0x3F800000#32
      - Ideal.div (Ideal.hostReduceAdd reducesTo_S2048x1_S_d0_1 (outArr m c) (Ideal.ofBits .f32 0x00000000#32) j)
          (Ideal.ofBits .f32 0x45000000#32) = _
  rw [Ideal.hostReduceAdd_total reducesTo_S2048x1_S_d0_1 (fun b => b.elim0) (outArr m c) _ j, Ideal.ofBits_zero_f32, zero_add,
    sum_outArr]
  rfl

/-! ## The run, read -/

/-- Every weakly fair execution of the kernel program ends with its result at one minus the mean of the rows'
    cosines over the cells, and its five argument arrays unchanged. -/
theorem run : θ_run defs (onTc (τ := τ) (main (F := Ideal))) ⟨m, fun _ => 0, ρ⟩ fun r => ∀ c : Dev nD,
      r.2.mem ((c.tc : Thread nD τ).loc main_v3) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KValue

end
-- ==== Proof.RScatter.lean ====
/-
  The reference's accumulating scatter read at an element, over the extended reals: element s of the result is the
  operand's element plus the sum of the updates whose index word, read signed, is s. (The scatter has one index
  component per update and no window: update u goes to the element its own index names, or nowhere when that index
  lies outside the operand.)
-/
import proofs.«136550_j83373905149952_1_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.Scatter

open Idealize.ShloMosaic Idealize.ShloMosaic.TcCoe Idealize.ShloMosaic.ValueIdx
open Cert.ReferenceIdeal Cert.ReferenceIdeal.Gen

/-- On a rank-1 index every axis reads the same coordinate. -/
private theorem coord_val {n : Nat} (j : (⟨1, ![n]⟩ : Shape).Idx) (a : Fin 1) : (j a).val = (j 0).val := by
  match a with | ⟨0, _⟩ => rfl

/-- The scatter-indices index an update reads its one start component at: its own coordinate, then 0 on the
    index vector's axis. -/
private theorem siIdx_eq (j : S8388608.Idx) (c : Fin scatter_S4096000_S8388608x1_S8388608_n_0_0_1.scatterDimsToOperandDims.length) :
    scatter_S4096000_S8388608x1_S8388608_n_0_0_1.siIdx j c = ix2 (j 0) (0 : Fin 1) := by
  have h01 : ¬ ((0 : Nat) = scatter_S4096000_S8388608x1_S8388608_n_0_0_1.indexVectorDim) := by decide
  have h11 : (1 : Nat) = scatter_S4096000_S8388608x1_S8388608_n_0_0_1.indexVectorDim := rfl
  funext b
  match b with
  | ⟨0, _⟩ =>
    unfold ScatterDims.siIdx
    rw [dif_neg h01]
    unfold ScatterDims.siCoord
    apply Fin.ext
    exact coord_val j _
  | ⟨1, _⟩ =>
    unfold ScatterDims.siIdx
    rw [dif_pos h11]
    apply Fin.ext
    have h : c.val < 1 := c.isLt
    show c.val = 0
    omega

/-- The window's start on the operand's one axis: the update's index word, read signed. -/
private theorem start_eq (j : S8388608.Idx) (idx : IVec S8388608x1 32) (a : Fin S4096000.rank) :
    scatter_S4096000_S8388608x1_S8388608_n_0_0_1.start j idx a = (idx (ix2 (j 0) (0 : Fin 1))).toInt := by
  have ha : a ∈ scatter_S4096000_S8388608x1_S8388608_n_0_0_1.scatterDimsToOperandDims := by
    match a with | ⟨0, _⟩ => exact List.mem_singleton.2 rfl
  unfold ScatterDims.start
  rw [dif_pos ha, siIdx_eq]
  rfl

/-- The operand's one axis is an inserted window axis, so the window coordinate there is 0. -/
private theorem window_eq (j : S8388608.Idx) (a : Fin S4096000.rank) :
    scatter_S4096000_S8388608x1_S8388608_n_0_0_1.window j a = 0 := by
  have h0 : (0 : Fin S4096000.rank) ∉ scatter_S4096000_S8388608x1_S8388608_n_0_0_1.sKept := by decide
  have ha : a ∉ scatter_S4096000_S8388608x1_S8388608_n_0_0_1.sKept := by
    match a with | ⟨0, _⟩ => exact h0
  unfold ScatterDims.window
  rw [dif_neg ha]

/-- The operand's one extent. -/
private theorem size_eq (a : Fin S4096000.rank) : S4096000.size a = 4096000 := by
  match a with | ⟨0, _⟩ => rfl

/-- An update lands at element s exactly when its index word, read signed, is s. -/
private theorem resultIdx_iff (j : S8388608.Idx) (idx : IVec S8388608x1 32) (s : Fin 4096000) :
    scatter_S4096000_S8388608x1_S8388608_n_0_0_1.resultIdx? j idx = some (ix1 s) ↔ (idx (ix2 (j 0) (0 : Fin 1))).toInt = (s.val : Int) := by
  unfold ScatterDims.resultIdx?
  constructor
  · intro h
    split at h
    · rename_i hc
      have h1 := congrFun (Option.some.inj h) (0 : Fin 1)
      have h2 : (scatter_S4096000_S8388608x1_S8388608_n_0_0_1.start j idx 0 + scatter_S4096000_S8388608x1_S8388608_n_0_0_1.window j 0).toNat = s.val := congrArg Fin.val h1
      have h3 := hc 0
      rw [start_eq, window_eq] at h2 h3
      omega
    · cases h
  · intro h
    have hs := s.isLt
    have hc : ∀ a, 0 ≤ scatter_S4096000_S8388608x1_S8388608_n_0_0_1.start j idx a + scatter_S4096000_S8388608x1_S8388608_n_0_0_1.window j a
        ∧ scatter_S4096000_S8388608x1_S8388608_n_0_0_1.start j idx a + scatter_S4096000_S8388608x1_S8388608_n_0_0_1.window j a < S4096000.size a := by
      intro a
      rw [start_eq, window_eq, size_eq, h]
      omega
    rw [dif_pos hc]
    refine congrArg some ?_
    funext a
    match a with
    | ⟨0, _⟩ =>
      apply Fin.ext
      show (scatter_S4096000_S8388608x1_S8388608_n_0_0_1.start j idx _ + scatter_S4096000_S8388608x1_S8388608_n_0_0_1.window j _).toNat = s.val
      rw [start_eq, window_eq, h]
      omega

/-- Element s of the scatter-add: the operand there plus the updates whose signed index is s. -/
theorem scatterAdd_apply (x : FVec Ideal S4096000 .f32) (idx : IVec S8388608x1 32) (upd : FVec Ideal S8388608 .f32)
    (s : Fin 4096000) :
    Host.scatterAdd (F := Ideal) scatter_S4096000_S8388608x1_S8388608_n_0_0_1 x idx upd (ix1 s)
      = x (ix1 s) + ∑ u : Fin 8388608, if (idx (ix2 u (0 : Fin 1))).toInt = (s.val : Int) then upd (ix1 u) else 0 := by
  unfold Host.scatterAdd
  rw [Ideal.hostScatterAdd_def]
  unfold Ideal.hostScatterAdd
  refine congrArg (x (ix1 s) + ·) ?_
  rw [Finset.sum_filter]
  let e : S8388608.Idx ≃ Fin 8388608 :=
    ⟨fun j => j 0, fun u => ix1 u, fun j => (eq_ix1 j).symm, fun u => rfl⟩
  refine Fintype.sum_equiv e _ _ (fun j => ?_)
  have hj : j = ix1 (j 0) := eq_ix1 j
  rw [if_congr (resultIdx_iff j idx s) rfl rfl]
  exact if_congr Iff.rfl (congrArg upd hj) rfl

end Cert.ReferenceIdeal.Scatter

end
-- ==== Proof.RBinned.lean ====
/-
  The reference's binned spectra are the row histograms: entry (r, b) of the scatter-add's result, viewed as 2048 rows
  of 2000 bins, is the sum of the intensities of row r whose m/z value has bin word b. An update's index is
  2000 * (its row) + (its bin word), which is never negative and names bin b of row r exactly when the row is r and the
  bin word is b.
-/
import proofs.«136550_j83373905149952_1_alg».proof.Proof.RScatter
import proofs.«136550_j83373905149952_1_alg».proof.Proof.Spec
import Mathlib.Data.Fintype.BigOperators

noncomputable section

namespace Cert.ReferenceIdeal.Binned

open Idealize.ShloMosaic Idealize.ShloMosaic.TcCoe Idealize.ShloMosaic.ValueIdx
open Cert.ReferenceIdeal Cert.ReferenceIdeal.Gen Cert.BinCos

/-! ## Words: the clipped bin word, and the index word 2000 * row + bin word -/

/-- A word clipped to [0, 1999] is a natural number at most 1999. -/
private theorem clip_le (y : BitVec 32) : (IntOp.minsi 1999#32 (IntOp.maxsi 0#32 y)).toNat ≤ 1999 := by
  unfold IntOp.minsi IntOp.maxsi
  have h0 : (0#32 : BitVec 32).toInt = 0 := by decide
  have h1 : (1999#32 : BitVec 32).toInt = 1999 := by decide
  have h1n : (1999#32 : BitVec 32).toNat = 1999 := by decide
  have h0n : (0#32 : BitVec 32).toNat = 0 := by decide
  by_cases hy : y.slt 0#32 = true
  · rw [if_pos hy]
    by_cases h2 : (1999#32 : BitVec 32).slt 0#32 = true
    · rw [if_pos h2]; omega
    · rw [if_neg h2]; omega
  · rw [if_neg hy]
    by_cases h2 : (1999#32 : BitVec 32).slt y = true
    · rw [if_pos h2]; omega
    · rw [if_neg h2]
      rw [BitVec.slt_iff_toInt_lt] at hy h2
      have := BitVec.toInt_eq_toNat_cond y
      have hlt := y.isLt
      split at this <;> omega

/-- The bin word of any extended real is at most 1999. -/
private theorem binw_le (x : EReal) : (binw x).toNat ≤ 1999 := clip_le _

/-- The index word of row r' and a bin word w ≤ 1999 does not wrap: as a natural number it is 2000 * r' + w. -/
private theorem word_toNat (r' : Nat) (hr : r' < 2048) (w : BitVec 32) (hw : w.toNat ≤ 1999) :
    (BitVec.ofNat 32 r' * 2000#32 + w).toNat = 2000 * r' + w.toNat := by
  have h2 : (2000#32 : BitVec 32).toNat = 2000 := by decide
  rw [BitVec.toNat_add, BitVec.toNat_mul, BitVec.toNat_ofNat, h2]
  omega

/-- Read signed it is the same number: it is below 2 ^ 31. -/
private theorem word_toInt (r' : Nat) (hr : r' < 2048) (w : BitVec 32) (hw : w.toNat ≤ 1999) :
    (BitVec.ofNat 32 r' * 2000#32 + w).toInt = ((2000 * r' + w.toNat : Nat) : Int) := by
  rw [BitVec.toInt_eq_toNat_of_lt, word_toNat r' hr w hw]
  rw [word_toNat r' hr w hw]; omega

/-- The index word is not negative, so the wrap-around select keeps it. -/
private theorem word_select (r' : Nat) (hr : r' < 2048) (w : BitVec 32) (hw : w.toNat ≤ 1999) :
    Scalar.select (IntOp.cmpi .slt (BitVec.ofNat 32 r' * 2000#32 + w) 0#32)
      (IntOp.addi (BitVec.ofNat 32 r' * 2000#32 + w) 4096000#32) (BitVec.ofNat 32 r' * 2000#32 + w)
      = BitVec.ofNat 32 r' * 2000#32 + w := by
  have hn : ¬ ((BitVec.ofNat 32 r' * 2000#32 + w).slt 0#32 = true) := by
    rw [BitVec.slt_iff_toInt_lt, word_toInt r' hr w hw]
    have h0 : (0#32 : BitVec 32).toInt = 0 := by decide
    omega
  unfold Scalar.select IntOp.cmpi
  simp only [Bool.not_eq_true] at hn
  rw [hn]
  rfl

/-- The index word names position 2000 * r + b, b < 2000, exactly when the row is r and the bin word is b. -/
private theorem word_hit (r' r : Nat) (hr' : r' < 2048) (b : Nat) (hb : b < 2000) (w : BitVec 32) (hw : w.toNat ≤ 1999) :
    ((BitVec.ofNat 32 r' * 2000#32 + w).toInt = ((r * 2000 + b : Nat) : Int)) ↔ (r' = r ∧ w = BitVec.ofNat 32 b) := by
  rw [word_toInt r' hr' w hw]
  have hb' : (BitVec.ofNat 32 b).toNat = b := by rw [BitVec.toNat_ofNat]; omega
  constructor
  · intro h
    have h' : 2000 * r' + w.toNat = r * 2000 + b := by exact_mod_cast h
    refine ⟨by omega, BitVec.eq_of_toNat_eq ?_⟩
    rw [hb']; omega
  · rintro ⟨rfl, rfl⟩
    rw [hb']; push_cast; ring

/-! ## The sum over the 8388608 updates, by rows -/

/-- Row-major position 4096 * r' + n of entry (r', n). -/
private def flat : Fin 2048 × Fin 4096 ≃ Fin 8388608 where
  toFun p := ⟨4096 * p.1.val + p.2.val, by have h1 := p.1.isLt; have h2 := p.2.isLt; omega⟩
  invFun u := (⟨u.val / 4096, by have h := u.isLt; omega⟩, ⟨u.val % 4096, by omega⟩)
  left_inv p := by
    have h1 := p.1.isLt; have h2 := p.2.isLt
    apply Prod.ext <;> apply Fin.ext <;> simp only [] <;> omega
  right_inv u := by apply Fin.ext; simp only []; omega

/-- Updates whose index word is 2000 * (row) + (bin word of the row's m/z value), summed at position 2000 * r + b:
    the histogram of row r at bin b. -/
private theorem scatter_sum (p v : Fin 2048 → Fin 4096 → EReal) (idx : Fin 8388608 → BitVec 32)
    (upd : Fin 8388608 → EReal)
    (hidx : ∀ (r' : Fin 2048) (n : Fin 4096), idx (flat (r', n)) = BitVec.ofNat 32 r'.val * 2000#32 + binw (p r' n))
    (hupd : ∀ (r' : Fin 2048) (n : Fin 4096), upd (flat (r', n)) = v r' n) (r : Fin 2048) (b : Fin 2000) :
    (∑ u : Fin 8388608, if (idx u).toInt = ((r.val * 2000 + b.val : Nat) : Int) then upd u else 0)
      = hist (p r) (v r) (BitVec.ofNat 32 b.val) := by
  rw [← Equiv.sum_comp flat, Fintype.sum_prod_type]
  rw [Finset.sum_eq_single r]
  · unfold hist
    refine Finset.sum_congr rfl fun n _ => ?_
    rw [hidx, hupd]
    refine if_congr ?_ rfl rfl
    rw [word_hit r.val r.val r.isLt b.val b.isLt _ (binw_le _)]
    exact ⟨fun h => h.2, fun h => ⟨rfl, h⟩⟩
  · intro r' _ hne
    refine Finset.sum_eq_zero fun n _ => ?_
    rw [hidx, if_neg]
    intro h
    exact hne (Fin.ext ((word_hit r'.val r.val r'.isLt b.val b.isLt _ (binw_le _)).mp h).1)
  · intro h; exact absurd (Finset.mem_univ r) h

/-! ## The reference's index words and updates, read at an entry -/

/-- The f32 pattern 0x3F800000 is the real number 1. -/
private theorem one_f32 : Ideal.ofBits .f32 0x3F800000#32 = ((1 : ℝ) : EReal) := by
  simp [Ideal.ofBits, Ideal.ieee]
  norm_cast
  norm_num

/-- Division by the literal 1.0 changes nothing. -/
private theorem div_one_f32 (x : EReal) : Ideal.div x (Ideal.ofBits .f32 0x3F800000#32) = x := by
  rw [one_f32, Ideal.div_coe one_ne_zero, one_div, inv_one, EReal.coe_one, mul_one]

/-- The predicted spectrum's index word before flattening, at entry (r', n). -/
private theorem wordP (x0 : FVec Ideal S2048x4096 .f32) (r' : Fin 2048) (n : Fin 4096) :
    Read.val_main_v11 (F := Ideal) x0 (ix2 r' n) = BitVec.ofNat 32 r'.val * 2000#32 + binw (x0 (ix2 r' n)) := by
  rw [Read.val_main_v11_apply, Read.val_main_v10_apply, Read.val_main_v9_apply, Read.val_main_v7_apply,
    Read.val_main_v6_apply, Read.val_main_v8_apply, Read.val_main_c_2_apply, Read.val_main_v5_apply,
    Read.val_main_call0_v4_apply, Read.val_main_call0_v3_apply, Read.val_main_c_1_apply,
    Read.val_main_call0_v2_apply, Read.val_main_call0_v1_apply, Read.val_main_call0_v0_apply, Read.val_main_c_apply,
    Read.val_main_v4_apply, Read.val_main_v3_apply, Read.val_main_v1_apply, Read.val_main_v0_apply,
    Read.val_main_cst_apply, Read.val_main_v2_apply, Read.val_main_cst_0_apply]
  show IntOp.addi (IntOp.muli (BitVec.ofNat 32 r'.val) 2000#32) (IntOp.minsi 1999#32 (IntOp.maxsi 0#32
    (Ideal.fptosi 32 (Ideal.div (x0 (ix2 r' n) * Ideal.ofBits .f32 0x44FA0000#32) (Ideal.ofBits .f32 0x3F800000#32))))) = _
  rw [div_one_f32]
  rfl

/-- The flattened position 4096 * r' + n is entry (r', n). -/
private theorem unflat (r' : Fin 2048) (n : Fin 4096) :
    Read.idx_main_v12 (ix1 (flat (r', n))) = ix2 r' n := by
  have h1 := r'.isLt; have h2 := n.isLt
  funext a
  match a with
  | ⟨0, _⟩ => exact Fin.ext (by show (4096 * r'.val + n.val) / 4096 = r'.val; omega)
  | ⟨1, _⟩ => exact Fin.ext (by show (4096 * r'.val + n.val) % 4096 = n.val; omega)

/-- The predicted spectrum's scatter index of update 4096 * r' + n. -/
private theorem idxP (x0 : FVec Ideal S2048x4096 .f32) (r' : Fin 2048) (n : Fin 4096) :
    Read.val_main_v20 (F := Ideal) x0 (ix2 (flat (r', n)) (0 : Fin 1))
      = BitVec.ofNat 32 r'.val * 2000#32 + binw (x0 (ix2 r' n)) := by
  have hi : Read.idx_main_v20 (ix2 (flat (r', n)) (0 : Fin 1)) = ix1 (flat (r', n)) := by
    funext a; match a with | ⟨0, _⟩ => rfl
  rw [Read.val_main_v20_apply, hi, Read.val_main_v19_apply, Read.val_main_v16_apply, Read.val_main_v18_apply,
    Read.val_main_v15_apply, Read.val_main_c_4_apply, Read.val_main_v17_apply, Read.val_main_c_5_apply,
    Read.val_main_v12_apply, unflat, wordP]
  exact word_select r'.val r'.isLt _ (binw_le _)

/-- The predicted spectrum's update 4096 * r' + n. -/
private theorem updP (x1 : FVec Ideal S2048x4096 .f32) (r' : Fin 2048) (n : Fin 4096) :
    Read.val_main_v14 (F := Ideal) x1 (ix1 (flat (r', n))) = x1 (ix2 r' n) := by
  rw [Read.val_main_v14_apply]
  exact congrArg x1 (unflat r' n)

/-- The predicted spectrum binned: row r, bin b. -/
theorem binnedP (x0 x1 : FVec Ideal S2048x4096 .f32) (r : Fin 2048) (b : Fin 2000) :
    Read.val_main_v22 (F := Ideal) x0 x1 (ix2 r b)
      = hist (fun n : Fin 4096 => x0 (ix2 r n)) (fun n : Fin 4096 => x1 (ix2 r n)) (BitVec.ofNat 32 b.val) := by
  have hs : Read.idx_main_v22 (ix2 r b)
      = ix1 (⟨r.val * 2000 + b.val, by have h1 := r.isLt; have h2 := b.isLt; omega⟩ : Fin 4096000) := by
    funext a; match a with | ⟨0, _⟩ => rfl
  rw [Read.val_main_v22_apply, hs]
  unfold Read.val_main_v21
  refine (Scatter.scatterAdd_apply _ _ _ _).trans ?_
  rw [Read.val_main_v13_apply, Read.val_main_cst_3_apply]
  show Ideal.ofBits .f32 0x00000000#32 + _ = _
  rw [Ideal.ofBits_zero_f32, zero_add]
  exact scatter_sum (fun r' n => x0 (ix2 r' n)) (fun r' n => x1 (ix2 r' n))
    (fun u => Read.val_main_v20 (F := Ideal) x0 (ix2 u (0 : Fin 1)))
    (fun u => Read.val_main_v14 (F := Ideal) x1 (ix1 u)) (idxP x0) (updP x1) r b

/-- The target spectrum's index word before flattening, at entry (r', n). -/
private theorem wordT (x2 : FVec Ideal S2048x4096 .f32) (r' : Fin 2048) (n : Fin 4096) :
    Read.val_main_v40 (F := Ideal) x2 (ix2 r' n) = BitVec.ofNat 32 r'.val * 2000#32 + binw (x2 (ix2 r' n)) := by
  rw [Read.val_main_v40_apply, Read.val_main_v39_apply, Read.val_main_v38_apply, Read.val_main_v36_apply,
    Read.val_main_v35_apply, Read.val_main_v37_apply, Read.val_main_c_11_apply, Read.val_main_v34_apply,
    Read.val_main_call2_v4_apply, Read.val_main_call2_v3_apply, Read.val_main_c_10_apply,
    Read.val_main_call2_v2_apply, Read.val_main_call2_v1_apply, Read.val_main_call2_v0_apply, Read.val_main_c_9_apply,
    Read.val_main_v33_apply, Read.val_main_v32_apply, Read.val_main_v30_apply, Read.val_main_v29_apply,
    Read.val_main_cst_7_apply, Read.val_main_v31_apply, Read.val_main_cst_8_apply]
  show IntOp.addi (IntOp.muli (BitVec.ofNat 32 r'.val) 2000#32) (IntOp.minsi 1999#32 (IntOp.maxsi 0#32
    (Ideal.fptosi 32 (Ideal.div (x2 (ix2 r' n) * Ideal.ofBits .f32 0x44FA0000#32) (Ideal.ofBits .f32 0x3F800000#32))))) = _
  rw [div_one_f32]
  rfl

/-- The target spectrum's scatter index of update 4096 * r' + n. -/
private theorem idxT (x2 : FVec Ideal S2048x4096 .f32) (r' : Fin 2048) (n : Fin 4096) :
    Read.val_main_v49 (F := Ideal) x2 (ix2 (flat (r', n)) (0 : Fin 1))
      = BitVec.ofNat 32 r'.val * 2000#32 + binw (x2 (ix2 r' n)) := by
  have hi : Read.idx_main_v49 (ix2 (flat (r', n)) (0 : Fin 1)) = ix1 (flat (r', n)) := by
    funext a; match a with | ⟨0, _⟩ => rfl
  have hu : Read.idx_main_v41 (ix1 (flat (r', n))) = ix2 r' n := unflat r' n
  rw [Read.val_main_v49_apply, hi, Read.val_main_v48_apply, Read.val_main_v45_apply, Read.val_main_v47_apply,
    Read.val_main_v44_apply, Read.val_main_c_13_apply, Read.val_main_v46_apply, Read.val_main_c_14_apply,
    Read.val_main_v41_apply, hu, wordT]
  exact word_select r'.val r'.isLt _ (binw_le _)

/-- The target spectrum's update 4096 * r' + n: the intensity times the mask. -/
private theorem updT (x3 x4 : FVec Ideal S2048x4096 .f32) (r' : Fin 2048) (n : Fin 4096) :
    Read.val_main_v43 (F := Ideal) x3 x4 (ix1 (flat (r', n))) = x3 (ix2 r' n) * x4 (ix2 r' n) := by
  have hu : Read.idx_main_v43 (ix1 (flat (r', n))) = ix2 r' n := unflat r' n
  rw [Read.val_main_v43_apply, hu, Read.val_main_v28_apply]
  rfl

/-- The target spectrum binned, its intensities masked: row r, bin b. -/
theorem binnedT (x2 x3 x4 : FVec Ideal S2048x4096 .f32) (r : Fin 2048) (b : Fin 2000) :
    Read.val_main_v51 (F := Ideal) x2 x3 x4 (ix2 r b)
      = hist (fun n : Fin 4096 => x2 (ix2 r n)) (fun n : Fin 4096 => x3 (ix2 r n) * x4 (ix2 r n)) (BitVec.ofNat 32 b.val) := by
  have hs : Read.idx_main_v51 (ix2 r b)
      = ix1 (⟨r.val * 2000 + b.val, by have h1 := r.isLt; have h2 := b.isLt; omega⟩ : Fin 4096000) := by
    funext a; match a with | ⟨0, _⟩ => rfl
  rw [Read.val_main_v51_apply, hs]
  unfold Read.val_main_v50
  refine (Scatter.scatterAdd_apply _ _ _ _).trans ?_
  rw [Read.val_main_v42_apply, Read.val_main_cst_12_apply]
  show Ideal.ofBits .f32 0x00000000#32 + _ = _
  rw [Ideal.ofBits_zero_f32, zero_add]
  exact scatter_sum (fun r' n => x2 (ix2 r' n)) (fun r' n => x3 (ix2 r' n) * x4 (ix2 r' n))
    (fun u => Read.val_main_v49 (F := Ideal) x2 (ix2 u (0 : Fin 1)))
    (fun u => Read.val_main_v43 (F := Ideal) x3 x4 (ix1 u)) (idxT x2) (updT x3 x4) r b

end Cert.ReferenceIdeal.Binned

end
-- ==== Proof.RChain.lean ====
/-
  The reference's result is the loss of the rows' guarded cosines over the 2000 bins: from the binned spectra on, every
  operation is read at an index (norms as roots of row sums of squares, the keepdims broadcasts, the two divisions, the
  inner product, the floored norms, the mean over the rows).
-/
import proofs.«136550_j83373905149952_1_alg».proof.Proof.RBinned
import Idealize.ShloMosaic.Lib.ValueIdxRank1

noncomputable section

namespace Cert.ReferenceIdeal.Chain

open Idealize.ShloMosaic Idealize.ShloMosaic.TcCoe Idealize.ShloMosaic.ValueIdx
open Cert.ReferenceIdeal Cert.ReferenceIdeal.Gen Cert.BinCos

/-! ## The composed index maps, by coordinates

A sum along the bins of row r reads entry (r, k); a keepdims broadcast of a row quantity reads column 0 of row r, and the
column it was made from is row r of the rank-1 array. -/

private theorem idx_inner (r : Fin 2048) (k : Fin 2000) : Read.idx_main_v58 (ix1 r) k = ix2 r k :=
  funext fun a => Fin.ext (by match a with | ⟨0, _⟩ => rfl | ⟨1, _⟩ => rfl)
private theorem idx_sqP (r : Fin 2048) (k : Fin 2000) : Read.idx_main_call1_v1 (ix1 r) k = ix2 r k :=
  funext fun a => Fin.ext (by match a with | ⟨0, _⟩ => rfl | ⟨1, _⟩ => rfl)
private theorem idx_sqT (r : Fin 2048) (k : Fin 2000) : Read.idx_main_call3_v1 (ix1 r) k = ix2 r k :=
  funext fun a => Fin.ext (by match a with | ⟨0, _⟩ => rfl | ⟨1, _⟩ => rfl)
private theorem idx_usqP (r : Fin 2048) (k : Fin 2000) : Read.idx_main_call4_v1 (ix1 r) k = ix2 r k :=
  funext fun a => Fin.ext (by match a with | ⟨0, _⟩ => rfl | ⟨1, _⟩ => rfl)
private theorem idx_usqT (r : Fin 2048) (k : Fin 2000) : Read.idx_main_call5_v1 (ix1 r) k = ix2 r k :=
  funext fun a => Fin.ext (by match a with | ⟨0, _⟩ => rfl | ⟨1, _⟩ => rfl)
private theorem idx_bcP (r : Fin 2048) (b : Fin 2000) : Read.idx_main_v26 (ix2 r b) = ix2 r (0 : Fin 1) :=
  funext fun a => Fin.ext (by match a with | ⟨0, _⟩ => rfl | ⟨1, _⟩ => rfl)
private theorem idx_bcT (r : Fin 2048) (b : Fin 2000) : Read.idx_main_v55 (ix2 r b) = ix2 r (0 : Fin 1) :=
  funext fun a => Fin.ext (by match a with | ⟨0, _⟩ => rfl | ⟨1, _⟩ => rfl)
private theorem idx_colP (r : Fin 2048) : Read.idx_main_call1_v2 (ix2 r (0 : Fin 1)) = ix1 r :=
  funext fun a => Fin.ext (by match a with | ⟨0, _⟩ => rfl)
private theorem idx_colT (r : Fin 2048) : Read.idx_main_call3_v2 (ix2 r (0 : Fin 1)) = ix1 r :=
  funext fun a => Fin.ext (by match a with | ⟨0, _⟩ => rfl)

/-! ## The guarded norms and the normalised spectra -/

/-- The predicted spectrum's guarded norm, broadcast along the bins: the root of row r's sum of squares, plus eps. -/
private theorem normP (x0 x1 : FVec Ideal S2048x4096 .f32) (r : Fin 2048) (b : Fin 2000) :
    Read.val_main_v26 (F := Ideal) x0 x1 (ix2 r b)
      = Ideal.sqrt (∑ k : Fin 2000, Read.val_main_v22 (F := Ideal) x0 x1 (ix2 r k)
          * Read.val_main_v22 (F := Ideal) x0 x1 (ix2 r k)) + eps := by
  rw [Read.val_main_v26_apply, Read.val_main_v25_apply, Read.val_main_v23_apply, Read.val_main_call1_v2_apply,
    Read.val_main_v24_apply, Read.val_main_cst_6_apply, idx_bcP, idx_colP]
  rw [Read.val_main_call1_v1_apply, Read.val_main_call1_cst_apply]
  rw [Ideal.addf_def, Ideal.hostUnary_sqrt_def, Ideal.ofBits_def, Ideal.ofBits_def, Ideal.ofBits_zero_f32, zero_add]
  refine congrArg (fun s => Ideal.sqrt s + eps) (Finset.sum_congr rfl fun k _ => ?_)
  rw [idx_sqP, Read.val_main_call1_v0_apply, Ideal.mulf_def]

/-- The target spectrum's guarded norm, broadcast along the bins. -/
private theorem normT (x2 x3 x4 : FVec Ideal S2048x4096 .f32) (r : Fin 2048) (b : Fin 2000) :
    Read.val_main_v55 (F := Ideal) x2 x3 x4 (ix2 r b)
      = Ideal.sqrt (∑ k : Fin 2000, Read.val_main_v51 (F := Ideal) x2 x3 x4 (ix2 r k)
          * Read.val_main_v51 (F := Ideal) x2 x3 x4 (ix2 r k)) + eps := by
  rw [Read.val_main_v55_apply, Read.val_main_v54_apply, Read.val_main_v52_apply, Read.val_main_call3_v2_apply,
    Read.val_main_v53_apply, Read.val_main_cst_15_apply, idx_bcT, idx_colT]
  rw [Read.val_main_call3_v1_apply, Read.val_main_call3_cst_apply]
  rw [Ideal.addf_def, Ideal.hostUnary_sqrt_def, Ideal.ofBits_def, Ideal.ofBits_def, Ideal.ofBits_zero_f32, zero_add]
  refine congrArg (fun s => Ideal.sqrt s + eps) (Finset.sum_congr rfl fun k _ => ?_)
  rw [idx_sqT, Read.val_main_call3_v0_apply, Ideal.mulf_def]

/-- The predicted spectrum normalised: entry (r, b) over the row's guarded norm. -/
private theorem unitP (x0 x1 : FVec Ideal S2048x4096 .f32) (r : Fin 2048) (b : Fin 2000) :
    Read.val_main_v27 (F := Ideal) x0 x1 (ix2 r b)
      = Ideal.div (Read.val_main_v22 (F := Ideal) x0 x1 (ix2 r b))
          (Ideal.sqrt (∑ k : Fin 2000, Read.val_main_v22 (F := Ideal) x0 x1 (ix2 r k)
            * Read.val_main_v22 (F := Ideal) x0 x1 (ix2 r k)) + eps) := by
  rw [Read.val_main_v27_apply, Ideal.hostDivf_def, normP]

/-- The target spectrum normalised: entry (r, b) over the row's guarded norm. -/
private theorem unitT (x2 x3 x4 : FVec Ideal S2048x4096 .f32) (r : Fin 2048) (b : Fin 2000) :
    Read.val_main_v56 (F := Ideal) x2 x3 x4 (ix2 r b)
      = Ideal.div (Read.val_main_v51 (F := Ideal) x2 x3 x4 (ix2 r b))
          (Ideal.sqrt (∑ k : Fin 2000, Read.val_main_v51 (F := Ideal) x2 x3 x4 (ix2 r k)
            * Read.val_main_v51 (F := Ideal) x2 x3 x4 (ix2 r k)) + eps) := by
  rw [Read.val_main_v56_apply, Ideal.hostDivf_def, normT]

/-! ## The inner product and the floored norms of the normalised spectra -/

/-- The inner product of row r's two normalised spectra. -/
private theorem inner_apply (x0 x1 x2 x3 x4 : FVec Ideal S2048x4096 .f32) (r : Fin 2048) :
    Read.val_main_v58 (F := Ideal) x0 x1 x2 x3 x4 (ix1 r)
      = ∑ k : Fin 2000, Read.val_main_v27 (F := Ideal) x0 x1 (ix2 r k) * Read.val_main_v56 (F := Ideal) x2 x3 x4 (ix2 r k) := by
  rw [Read.val_main_v58_apply, Read.val_main_cst_16_apply, Ideal.ofBits_def, Ideal.ofBits_zero_f32, zero_add]
  refine Finset.sum_congr rfl fun k _ => ?_
  rw [idx_inner, Read.val_main_v57_apply, Ideal.mulf_def]

/-- The norm of row r's normalised predicted spectrum, floored at eps. -/
private theorem floorP (x0 x1 : FVec Ideal S2048x4096 .f32) (r : Fin 2048) :
    Read.val_main_v61 (F := Ideal) x0 x1 (ix1 r)
      = max (Ideal.sqrt (∑ k : Fin 2000, Read.val_main_v27 (F := Ideal) x0 x1 (ix2 r k)
          * Read.val_main_v27 (F := Ideal) x0 x1 (ix2 r k))) eps := by
  rw [Read.val_main_v61_apply, Read.val_main_v59_apply, Read.val_main_v60_apply, Read.val_main_cst_17_apply,
    Read.val_main_call4_v1_apply, Read.val_main_call4_cst_apply]
  rw [Ideal.maximumf_def, Ideal.hostUnary_sqrt_def, Ideal.ofBits_def, Ideal.ofBits_def, Ideal.ofBits_zero_f32, zero_add]
  refine congrArg (fun s => max (Ideal.sqrt s) eps) (Finset.sum_congr rfl fun k _ => ?_)
  rw [idx_usqP, Read.val_main_call4_v0_apply, Ideal.mulf_def]

/-- The norm of row r's normalised target spectrum, floored at eps. -/
private theorem floorT (x2 x3 x4 : FVec Ideal S2048x4096 .f32) (r : Fin 2048) :
    Read.val_main_v64 (F := Ideal) x2 x3 x4 (ix1 r)
      = max (Ideal.sqrt (∑ k : Fin 2000, Read.val_main_v56 (F := Ideal) x2 x3 x4 (ix2 r k)
          * Read.val_main_v56 (F := Ideal) x2 x3 x4 (ix2 r k))) eps := by
  rw [Read.val_main_v64_apply, Read.val_main_v62_apply, Read.val_main_v63_apply, Read.val_main_cst_18_apply,
    Read.val_main_call5_v1_apply, Read.val_main_call5_cst_apply]
  rw [Ideal.maximumf_def, Ideal.hostUnary_sqrt_def, Ideal.ofBits_def, Ideal.ofBits_def, Ideal.ofBits_zero_f32, zero_add]
  refine congrArg (fun s => max (Ideal.sqrt s) eps) (Finset.sum_congr rfl fun k _ => ?_)
  rw [idx_usqT, Read.val_main_call5_v0_apply, Ideal.mulf_def]

/-! ## The row's cosine -/

/-- Row r's cosine is the guarded cosine of the two binned rows, whatever the bins hold. -/
private theorem cos_binned (x0 x1 x2 x3 x4 : FVec Ideal S2048x4096 .f32) (r : Fin 2048) :
    Read.val_main_v66 (F := Ideal) x0 x1 x2 x3 x4 (ix1 r)
      = cosOn (fun b : Fin 2000 => Read.val_main_v22 (F := Ideal) x0 x1 (ix2 r b))
          (fun b : Fin 2000 => Read.val_main_v51 (F := Ideal) x2 x3 x4 (ix2 r b)) := by
  rw [Read.val_main_v66_apply, Ideal.hostDivf_def, Read.val_main_v65_apply, Ideal.mulf_def, inner_apply, floorP, floorT]
  simp only [unitP, unitT]
  unfold cosOn
  beta_reduce
  rfl

/-- Row r's cosine as the reference forms it. -/
theorem cos_apply (x0 x1 x2 x3 x4 : FVec Ideal S2048x4096 .f32) (r : Fin 2048) :
    Read.val_main_v66 (F := Ideal) x0 x1 x2 x3 x4 (ix1 r) = rowcos x0 x1 x2 x3 x4 r := by
  rw [cos_binned, funext (Binned.binnedP x0 x1 r), funext (Binned.binnedT x2 x3 x4 r)]
  rfl

/-- The reference's result is the specification's. -/
theorem result_eq (x0 x1 x2 x3 x4 : FVec Ideal S2048x4096 .f32) :
    Read.val_main_v69 (F := Ideal) x0 x1 x2 x3 x4 = result x0 x1 x2 x3 x4 := by
  funext i
  rw [Read.val_main_v69_apply, Read.val_main_v68_apply, Read.val_main_v67_apply, Read.val_main_cst_21_apply,
    Read.val_main_cst_20_apply, Read.val_main_cst_19_apply]
  rw [Ideal.subf_def, Ideal.hostDivf_def, Ideal.ofBits_def, Ideal.ofBits_def, Ideal.ofBits_def, Ideal.ofBits_zero_f32,
    zero_add]
  rw [← Equiv.sum_comp (idxEquiv1 (n := 2048)).symm]
  show _ = loss (rowcos x0 x1 x2 x3 x4)
  unfold loss
  refine congrArg (fun s => Ideal.ofBits .f32 0x3F800000#32 - Ideal.div s (Ideal.ofBits .f32 0x45000000#32))
    (Finset.sum_congr rfl fun r _ => ?_)
  exact cos_apply x0 x1 x2 x3 x4 r

end Cert.ReferenceIdeal.Chain

end
-- ==== Proof.Bridge.lean ====
/-
  The kernel's padded cells and the reference's bins hold the same histogram. A bin word w lies in [0, 1999], so it is
  128 * (w shifted right by 7) + (w and 127) with the first part below 16: cell (k1, k0) collects exactly the entries
  whose bin word is 128 * k1 + k0, and a cell with 128 * k1 + k0 at or beyond 2000 collects nothing and holds 0. The
  guarded cosine ignores cells that are 0 in both families: 0 * 0 = 0, and 0 divided by a norm plus eps is 0 because
  that divisor is positive (a sum of squares is not negative, nor is its root, and eps is positive). So the cosine over
  the 16 x 128 cells is the cosine over the 2000 bins.
-/
import proofs.«136550_j83373905149952_1_alg».proof.Proof.Spec
import Mathlib.Algebra.BigOperators.Fin
import Mathlib.Algebra.BigOperators.Group.Finset.Basic
import Mathlib.Data.EReal.Operations

noncomputable section

namespace Cert.BinCos

open Idealize.ShloMosaic Idealize.ShloMosaic.ValueIdx

/-! ### Words -/

/-- A bin word lies in [0, 1999] as a signed number. -/
private theorem binw_toInt (x : EReal) : 0 ≤ (binw x).toInt ∧ (binw x).toInt ≤ 1999 := by
  unfold binw IntOp.minsi IntOp.maxsi
  have h1999 : (1999#32 : BitVec 32).toInt = 1999 := by decide
  have h0 : (0#32 : BitVec 32).toInt = 0 := by decide
  generalize Ideal.fptosi 32 (x * Ideal.ofBits .f32 0x44FA0000#32) = f
  by_cases hf : f.slt 0#32 = true
  · rw [if_pos hf]
    by_cases hm : (1999#32 : BitVec 32).slt 0#32 = true
    · rw [if_pos hm, h1999]; omega
    · rw [if_neg hm, h0]; omega
  · rw [if_neg hf]
    have hf' : ¬ f.toInt < 0 := by
      intro h; apply hf; rw [BitVec.slt_iff_toInt_lt, h0]; exact h
    by_cases hm : (1999#32 : BitVec 32).slt f = true
    · rw [if_pos hm, h1999]; omega
    · rw [if_neg hm]
      have hm' : ¬ (1999 : Int) < f.toInt := by
        intro h; apply hm; rw [BitVec.slt_iff_toInt_lt, h1999]; exact h
      omega

/-- So it is at most 1999 as an unsigned number. -/
private theorem binw_toNat_le (x : EReal) : (binw x).toNat ≤ 1999 := by
  obtain ⟨h0, h1⟩ := binw_toInt x
  have hlt := (binw x).isLt
  rw [BitVec.toInt_eq_toNat_cond] at h0 h1
  split at h0 <;> omega

/-- The arithmetic shift by 7 of a word in [0, 1999] is its quotient by 128. -/
private theorem toNat_shr7 (w : BitVec 32) (hw : w.toNat ≤ 1999) :
    (IntOp.shrsi .vector w 7#32).toNat = w.toNat / 128 := by
  have hmsb : w.msb = false := by rw [BitVec.msb_eq_false_iff_two_mul_lt]; omega
  have h7 : (7#32 : BitVec 32).toNat = 7 := by decide
  unfold IntOp.shrsi
  rw [if_pos (by rw [h7]; omega), BitVec.toNat_sshiftRight'_of_msb_false hmsb, h7, Nat.shiftRight_eq_div_pow]

/-- The low seven bits of a word are its remainder by 128. -/
private theorem toNat_and127 (w : BitVec 32) : (IntOp.andi w 127#32).toNat = w.toNat % 128 := by
  have h127 : (127#32 : BitVec 32).toNat = 2 ^ 7 - 1 := by decide
  unfold IntOp.andi
  rw [BitVec.toNat_and, h127, Nat.and_two_pow_sub_one_eq_mod]

/-- A comparison bit for equality, read as an extended real. -/
private theorem hot_eq (a b : BitVec 32) : hot (IntOp.cmpi .eq a b) = if a.toNat = b.toNat then 1 else 0 := by
  unfold hot IntOp.cmpi
  by_cases h : a = b
  · subst h; simp
  · have h' : ¬ a.toNat = b.toNat := fun e => h (BitVec.eq_of_toNat_eq e)
    rw [if_neg h']
    have : (a == b) = false := by simpa using h
    rw [this]; simp

/-- One entry's contribution to cell (k1, k0) is its intensity when its bin word is 128 * k1 + k0, and 0 otherwise. -/
private theorem term_eq (x y : EReal) (k1 : Fin 16) (k0 : Fin 128) :
    term x y k1 k0 = if (binw x).toNat = 128 * k1.val + k0.val then y else 0 := by
  have hw := binw_toNat_le x
  have hk1 : (BitVec.ofNat 32 k1.val).toNat = k1.val := by
    rw [BitVec.toNat_ofNat]; exact Nat.mod_eq_of_lt (by have := k1.isLt; omega)
  have hk0 : (BitVec.ofNat 32 k0.val).toNat = k0.val := by
    rw [BitVec.toNat_ofNat]; exact Nat.mod_eq_of_lt (by have := k0.isLt; omega)
  unfold term
  rw [hot_eq, hot_eq, toNat_shr7 _ hw, toNat_and127, hk1, hk0]
  have := k0.isLt
  by_cases h : (binw x).toNat = 128 * k1.val + k0.val
  · rw [if_pos h, if_pos (by omega), if_pos (by omega), one_mul, mul_one]
  · rw [if_neg h]
    by_cases h1 : (binw x).toNat / 128 = k1.val
    · rw [if_pos h1, if_neg (by omega), mul_zero]
    · rw [if_neg h1, zero_mul, zero_mul]

/-- A cell whose number is a bin holds that bin's histogram value. -/
private theorem cell_eq_hist {ν : Type} [Fintype ν] (p v : ν → EReal) (k1 : Fin 16) (k0 : Fin 128)
    (h : 128 * k1.val + k0.val < 2000) : cell p v k1 k0 = hist p v (BitVec.ofNat 32 (128 * k1.val + k0.val)) := by
  unfold cell hist
  refine Finset.sum_congr rfl fun n _ => ?_
  rw [term_eq]
  have hn : (BitVec.ofNat 32 (128 * k1.val + k0.val)).toNat = 128 * k1.val + k0.val := by
    rw [BitVec.toNat_ofNat]; exact Nat.mod_eq_of_lt (by omega)
  by_cases hb : (binw (p n)).toNat = 128 * k1.val + k0.val
  · rw [if_pos hb, if_pos (BitVec.eq_of_toNat_eq (by rw [hb, hn]))]
  · rw [if_neg hb, if_neg (fun e => hb (by rw [e, hn]))]

/-- A cell whose number is beyond the bins holds 0. -/
private theorem cell_eq_zero {ν : Type} [Fintype ν] (p v : ν → EReal) (k1 : Fin 16) (k0 : Fin 128)
    (h : 2000 ≤ 128 * k1.val + k0.val) : cell p v k1 k0 = 0 := by
  unfold cell
  refine Finset.sum_eq_zero fun n _ => ?_
  rw [term_eq, if_neg]
  have := binw_toNat_le (p n)
  omega

/-! ### Padding -/

/-- The guard is positive. -/
private theorem eps_pos : 0 < eps := by
  unfold eps
  simp [Ideal.ofBits, Ideal.ieee, -EReal.coe_mul]

/-- A square is not negative. -/
private theorem mul_self_nonneg' (x : EReal) : 0 ≤ x * x := by
  rw [EReal.mul_nonneg_iff]
  rcases le_total 0 x with h | h
  · exact Or.inl ⟨h, h⟩
  · exact Or.inr ⟨h, h⟩

/-- The root of a nonnegative is not negative. -/
private theorem sqrt_nonneg' {s : EReal} (hs : 0 ≤ s) : 0 ≤ Ideal.sqrt s := by
  induction s using EReal.rec with
  | bot => exact absurd hs (by simp)
  | top => simp
  | coe r =>
    have hr : 0 ≤ r := by exact_mod_cast hs
    rw [Ideal.sqrt_coe, if_neg (not_lt.mpr hr)]
    exact_mod_cast Real.sqrt_nonneg r

/-- A guarded norm is not zero. -/
private theorem norm_ne_zero {ι : Type} [Fintype ι] (a : ι → EReal) : Ideal.sqrt (∑ j, a j * a j) + eps ≠ 0 := by
  have hs : 0 ≤ Ideal.sqrt (∑ j, a j * a j) := sqrt_nonneg' (Finset.sum_nonneg fun j _ => mul_self_nonneg' (a j))
  exact ne_of_gt (lt_of_lt_of_le eps_pos (le_add_of_nonneg_left hs))

/-- Zero divided by a divisor that is not zero is zero. -/
private theorem div_zero_left {N : EReal} (hN : N ≠ 0) : Ideal.div 0 N = 0 := by
  unfold Ideal.div
  rw [if_neg hN, zero_mul]

/-- A sum of terms g (a i) (b i) with g 0 0 = 0, over families that vanish off the range of an injection, is the sum
    over the injection's domain. -/
private theorem sum_pad {ι κ : Type} [Fintype ι] [Fintype κ] (e : κ → ι) (he : Function.Injective e)
    (a b : ι → EReal) (ha : ∀ i, i ∉ Set.range e → a i = 0) (hb : ∀ i, i ∉ Set.range e → b i = 0)
    (g : EReal → EReal → EReal) (hg : g 0 0 = 0) :
    ∑ i, g (a i) (b i) = ∑ k, g (a (e k)) (b (e k)) :=
  (Fintype.sum_of_injective e he (fun k => g (a (e k)) (b (e k))) (fun i => g (a i) (b i))
    (fun i hi => by rw [ha i hi, hb i hi, hg]) (fun _ => rfl)).symm

/-- The guarded cosine does not see entries that are zero in both families: along an injection off whose range both
    families vanish, it is the cosine of the two families pulled back. -/
theorem cosOn_comp {ι κ : Type} [Fintype ι] [Fintype κ] (e : κ → ι) (he : Function.Injective e)
    (a b : ι → EReal) (ha : ∀ i, i ∉ Set.range e → a i = 0) (hb : ∀ i, i ∉ Set.range e → b i = 0) :
    cosOn a b = cosOn (fun k => a (e k)) (fun k => b (e k)) := by
  have hA : ∑ j, a j * a j = ∑ k, a (e k) * a (e k) := sum_pad e he a a ha ha (fun x y => x * y) (zero_mul 0)
  have hB : ∑ j, b j * b j = ∑ k, b (e k) * b (e k) := sum_pad e he b b hb hb (fun x y => x * y) (zero_mul 0)
  have hNa := norm_ne_zero a
  have hNb := norm_ne_zero b
  unfold cosOn
  beta_reduce
  rw [← hA, ← hB]
  generalize Ideal.sqrt (∑ j, a j * a j) + eps = Na at hNa ⊢
  generalize Ideal.sqrt (∑ j, b j * b j) + eps = Nb at hNb ⊢
  have h1 : ∑ i, Ideal.div (a i) Na * Ideal.div (b i) Nb = ∑ k, Ideal.div (a (e k)) Na * Ideal.div (b (e k)) Nb :=
    sum_pad e he a b ha hb (fun x y => Ideal.div x Na * Ideal.div y Nb) (by rw [div_zero_left hNa, zero_mul])
  have h2 : ∑ i, Ideal.div (a i) Na * Ideal.div (a i) Na = ∑ k, Ideal.div (a (e k)) Na * Ideal.div (a (e k)) Na :=
    sum_pad e he a a ha ha (fun x y => Ideal.div x Na * Ideal.div y Na) (by rw [div_zero_left hNa, zero_mul])
  have h3 : ∑ i, Ideal.div (b i) Nb * Ideal.div (b i) Nb = ∑ k, Ideal.div (b (e k)) Nb * Ideal.div (b (e k)) Nb :=
    sum_pad e he b b hb hb (fun x y => Ideal.div x Nb * Ideal.div y Nb) (by rw [div_zero_left hNb, zero_mul])
  rw [h1, h2, h3]

/-! ### The embedding of the bins in the cells -/

/-- Bin b sits in cell (b / 128, b % 128). -/
private def binCell (b : Fin 2000) : Fin 16 × Fin 128 :=
  (⟨b.val / 128, by have := b.isLt; omega⟩, ⟨b.val % 128, Nat.mod_lt _ (by norm_num)⟩)

private theorem binCell_num (b : Fin 2000) : 128 * (binCell b).1.val + (binCell b).2.val = b.val := by
  show 128 * (b.val / 128) + b.val % 128 = b.val
  exact Nat.div_add_mod b.val 128

private theorem binCell_injective : Function.Injective binCell := by
  intro b c h
  apply Fin.ext
  rw [← binCell_num b, ← binCell_num c, h]

/-- A cell that is no bin's has a number at or beyond 2000. -/
private theorem off_binCell (k : Fin 16 × Fin 128) (hk : k ∉ Set.range binCell) : 2000 ≤ 128 * k.1.val + k.2.val := by
  by_contra hlt
  apply hk
  have hk0 := k.2.isLt
  refine ⟨⟨128 * k.1.val + k.2.val, by omega⟩, ?_⟩
  apply Prod.ext
  · apply Fin.ext
    show (128 * k.1.val + k.2.val) / 128 = k.1.val
    omega
  · apply Fin.ext
    show (128 * k.1.val + k.2.val) % 128 = k.2.val
    omega

/-- The cosine over the padded cells is the cosine over the bins. -/
theorem cells_eq_bins {ν : Type} [Fintype ν] (p v p' v' : ν → EReal) :
    cosOn (fun k : Fin 16 × Fin 128 => cell p v k.1 k.2) (fun k : Fin 16 × Fin 128 => cell p' v' k.1 k.2)
      = cosOn (fun b : Fin 2000 => hist p v (BitVec.ofNat 32 b.val)) (fun b : Fin 2000 => hist p' v' (BitVec.ofNat 32 b.val)) := by
  have hcell : ∀ (q u : ν → EReal) (b : Fin 2000),
      cell q u (binCell b).1 (binCell b).2 = hist q u (BitVec.ofNat 32 b.val) := by
    intro q u b
    rw [cell_eq_hist q u _ _ (by rw [binCell_num]; exact b.isLt), binCell_num]
  rw [cosOn_comp binCell binCell_injective _ _
    (fun k hk => cell_eq_zero p v k.1 k.2 (off_binCell k hk))
    (fun k hk => cell_eq_zero p' v' k.1 k.2 (off_binCell k hk))]
  simp only [hcell]

/-- Row by row, the kernel's cosine is the reference's. -/
theorem rowcosCells_eq (x0 x1 x2 x3 x4 : Arr) (r : Fin 2048) :
    rowcosCells x0 x1 x2 x3 x4 r = rowcos x0 x1 x2 x3 x4 r :=
  cells_eq_bins _ _ _ _

end Cert.BinCos

end
-- ==== Proof.lean ====
/-
  The binned cosine-similarity loss: the kernel against its reference, over the extended reals.

  Both programs bin each spectrum row's m/z values into 2000 bins (the bin word of x is x * 2000 truncated and clipped
  to [0, 1999]), sum the intensities that fall into each bin, and take one minus the mean over the 2048 rows of a
  guarded cosine of the predicted and the target histogram (each histogram divided by its norm plus eps, the inner
  product divided by the product of the normalised histograms' norms floored at eps).

  The reference scatters every intensity of the flattened batch into a flat array of 2048 * 2000 bins at index
  2000 * row + bin word: element (r, b) receives exactly the intensities of row r with bin word b.
  The kernel walks each block of 128 rows through 32 blocks of 128 columns, accumulating into a 16 x 128 grid of
  cells per row the products of two one-hot factors and the intensity, summed over the block's columns by a batched
  matrix product: cell (k1, k0) receives the intensities whose bin word has high part k1 and low seven bits k0, that is
  bin 128 * k1 + k0, and the 48 cells beyond bin 1999 stay 0. At the last column block it forms the cosine over the
  cells, which is the cosine over the bins because cells that are 0 in both histograms add nothing to any of its sums.
  The operations after the kernel and the end of the reference take the same mean and difference.

  No step cancels, distributes or divides by anything that could be infinite or zero without saying so, so the
  equality holds for all extended-real inputs and the precondition is not used.
-/
import proofs.«136550_j83373905149952_1_alg».proof.Defs
import proofs.«136550_j83373905149952_1_alg».proof.Proof.Gen.Kernel
import proofs.«136550_j83373905149952_1_alg».proof.Proof.Gen.Kernel.Skeleton
import proofs.«136550_j83373905149952_1_alg».proof.Proof.Gen.Kernel.Launch
import proofs.«136550_j83373905149952_1_alg».proof.Proof.Gen.Kernel.Points
import proofs.«136550_j83373905149952_1_alg».proof.Proof.Gen.Kernel.Frame
import proofs.«136550_j83373905149952_1_alg».proof.Proof.Gen.KernelIdeal
import proofs.«136550_j83373905149952_1_alg».proof.Proof.Gen.KernelIdeal.Skeleton
import proofs.«136550_j83373905149952_1_alg».proof.Proof.Gen.KernelIdeal.Launch
import proofs.«136550_j83373905149952_1_alg».proof.Proof.Gen.KernelIdeal.Points
import proofs.«136550_j83373905149952_1_alg».proof.Proof.Gen.KernelIdeal.Frame
import proofs.«136550_j83373905149952_1_alg».proof.Proof.Gen.ReferenceIdeal
import proofs.«136550_j83373905149952_1_alg».proof.Proof.Gen.Pre_finite_inputs
import proofs.«136550_j83373905149952_1_alg».proof.Proof.Gen.ReferenceIdeal.Run
import proofs.«136550_j83373905149952_1_alg».proof.Proof.Gen.ReferenceIdeal.Read
import proofs.«136550_j83373905149952_1_alg».proof.Proof.KValue
import proofs.«136550_j83373905149952_1_alg».proof.Proof.RChain
import proofs.«136550_j83373905149952_1_alg».proof.Proof.Bridge
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arrays both programs end at the same loss: the kernel at one minus the mean
    of the rows' cosines over the 16 x 128 cells, the reference at one minus the mean of the rows' cosines over the
    2000 bins, and row by row the two cosines are equal. -/
theorem algebraic : Cert.algebraic_KernelIdeal_ReferenceIdeal := by
  intro m ρ m' ρ' _ hagree
  refine ⟨fun c => Cert.KernelIdeal.KValue.resultK m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq m' c, Cert.ReferenceIdeal.Chain.result_eq,
    (hagree c).1, (hagree c).2.1, (hagree c).2.2.1, (hagree c).2.2.2.1, (hagree c).2.2.2.2]
  funext j
  exact congrArg Cert.BinCos.loss (funext fun r => (Cert.BinCos.rowcosCells_eq _ _ _ _ _ r).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
